-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x320000 : Shape := ⟨2, ![2, 320000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x512 .f32) (main_arg1 : IVec S2x320000 32) (main_arg2 : FVec F S512x256 .f32) (main_arg3 : FVec F S256 .f32) (main_arg4 : FVec F S256x128 .f32) (main_arg5 : FVec F S128 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S10000x512 : Shape := ⟨2, ![10000, 512]⟩
abbrev S2x320000 : Shape := ⟨2, ![2, 320000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x320000 : Shape := ⟨2, ![1, 320000]⟩
abbrev S320000 : Shape := ⟨1, ![320000]⟩
abbrev S10000x256 : Shape := ⟨2, ![10000, 256]⟩
abbrev S2000x512 : Shape := ⟨2, ![2000, 512]⟩
abbrev S2000x256 : Shape := ⟨2, ![2000, 256]⟩
abbrev S10000 : Shape := ⟨1, ![10000]⟩
abbrev S330000 : Shape := ⟨1, ![330000]⟩
abbrev S_ : Shape := ⟨0, ![]⟩
abbrev S330000x1 : Shape := ⟨2, ![330000, 1]⟩
abbrev S330000x256 : Shape := ⟨2, ![330000, 256]⟩
abbrev S1x256 : Shape := ⟨2, ![1, 256]⟩
abbrev S10000x128 : Shape := ⟨2, ![10000, 128]⟩
abbrev S2000x128 : Shape := ⟨2, ![2000, 128]⟩
abbrev S330000x128 : Shape := ⟨2, ![330000, 128]⟩
abbrev S1x128 : Shape := ⟨2, ![1, 128]⟩

abbrev nBuf : Space → Nat
  | .hbm => 125
  | .vmem => 10
  | .smem => 0
  | _ => 0

abbrev bufTy : (tb : Table) → Fin (tcTables nBuf tb) → BufTy
  | .hbm, ⟨0, _⟩ => ⟨S10000x512, .f32⟩
  | .hbm, ⟨1, _⟩ => ⟨S2x320000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S10000x256, .f32⟩
  | .hbm, ⟨11, _⟩ => ⟨S10000, .i32⟩
  | .hbm, ⟨12, _⟩ => ⟨S330000, .i32⟩
  | .hbm, ⟨13, _⟩ => ⟨S330000, .i32⟩
  | .hbm, ⟨14, _⟩ => ⟨S_, .f32⟩
  | .hbm, ⟨15, _⟩ => ⟨S330000, .f32⟩
  | .hbm, ⟨16, _⟩ => ⟨S_, .f32⟩
  | .hbm, ⟨17, _⟩ => ⟨S10000, .f32⟩
  | .hbm, ⟨18, _⟩ => ⟨S330000x1, .i32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S10000, .i1⟩
  | .hbm, ⟨23, _⟩ => ⟨S10000, .f32⟩
  | .hbm, ⟨24, _⟩ => ⟨S_, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S_, .i32⟩
  | .hbm, ⟨29, _⟩ => ⟨S330000, .i32⟩
  | .hbm, ⟨30, _⟩ => ⟨S330000, .i1⟩
  | .hbm, ⟨31, _⟩ => ⟨S_, .i32⟩
  | .hbm, ⟨32, _⟩ => ⟨S330000, .i32⟩
  | .hbm, ⟨33, _⟩ => ⟨S330000, .i32⟩
  | .hbm, ⟨34, _⟩ => ⟨S330000, .i32⟩
  | .hbm, ⟨35, _⟩ => ⟨S330000x1, .i32⟩
  | .hbm, ⟨36, _⟩ => ⟨S330000, .f32⟩
  | .hbm, ⟨37, _⟩ => ⟨S_, .i32⟩
  | .hbm, ⟨38, _⟩ => ⟨S330000, .i32⟩
  | .hbm, ⟨39, _⟩ => ⟨S330000, .i1⟩
  | .hbm, ⟨40, _⟩ => ⟨S_, .i32⟩
  | .hbm, ⟨41, _⟩ => ⟨S330000, .i32⟩
  | .hbm, ⟨42, _⟩ => ⟨S330000, .i32⟩
  | .hbm, ⟨43, _⟩ => ⟨S330000, .i32⟩
  | .hbm, ⟨44, _⟩ => ⟨S330000x1, .i32⟩
  | .hbm, ⟨45, _⟩ => ⟨S330000, .f32⟩
  | .hbm, ⟨46, _⟩ => ⟨S330000, .f32⟩
  | .hbm, ⟨47, _⟩ => ⟨S_, .i32⟩
  | .hbm, ⟨48, _⟩ => ⟨S330000, .i32⟩
  | .hbm, ⟨49, _⟩ => ⟨S330000, .i1⟩
  | .hbm, ⟨50, _⟩ => ⟨S_, .i32⟩
  | .hbm, ⟨51, _⟩ => ⟨S330000, .i32⟩
  | .hbm, ⟨52, _⟩ => ⟨S330000, .i32⟩
  | .hbm, ⟨53, _⟩ => ⟨S330000, .i32⟩
  | .hbm, ⟨54, _⟩ => ⟨S330000x1, .i32⟩
  | .hbm, ⟨55, _⟩ => ⟨S330000x256, .f32⟩
  | .hbm, ⟨56, _⟩ => ⟨S330000x1, .f32⟩
  | .hbm, ⟨57, _⟩ => ⟨S330000x256, .f32⟩
  | .hbm, ⟨58, _⟩ => ⟨S330000x256, .f32⟩
  | .hbm, ⟨59, _⟩ => ⟨S_, .f32⟩
  | .hbm, ⟨60, _⟩ => ⟨S10000x256, .f32⟩
  | .hbm, ⟨61, _⟩ => ⟨S330000x1, .i32⟩
  | .hbm, ⟨62, _⟩ => ⟨S10000x256, .f32⟩
  | .hbm, ⟨63, _⟩ => ⟨S1x256, .f32⟩
  | .hbm, ⟨64, _⟩ => ⟨S10000x256, .f32⟩
  | .hbm, ⟨65, _⟩ => ⟨S10000x256, .f32⟩
  | .hbm, ⟨66, _⟩ => ⟨S_, .f32⟩
  | .hbm, ⟨67, _⟩ => ⟨S10000x256, .f32⟩
  | .hbm, ⟨68, _⟩ => ⟨S10000x256, .f32⟩
  | .hbm, ⟨69, _⟩ => ⟨S10000x128, .f32⟩
  | .hbm, ⟨70, _⟩ => ⟨S10000, .i32⟩
  | .hbm, ⟨71, _⟩ => ⟨S330000, .i32⟩
  | .hbm, ⟨72, _⟩ => ⟨S330000, .i32⟩
  | .hbm, ⟨73, _⟩ => ⟨S_, .f32⟩
  | .hbm, ⟨74, _⟩ => ⟨S330000, .f32⟩
  | .hbm, ⟨75, _⟩ => ⟨S_, .f32⟩
  | .hbm, ⟨76, _⟩ => ⟨S10000, .f32⟩
  | .hbm, ⟨77, _⟩ => ⟨S330000x1, .i32⟩
  | .hbm, ⟨78, _⟩ => ⟨S10000, .f32⟩
  | .hbm, ⟨79, _⟩ => ⟨S_, .f32⟩
  | .hbm, ⟨80, _⟩ => ⟨S10000, .f32⟩
  | .hbm, ⟨81, _⟩ => ⟨S10000, .i1⟩
  | .hbm, ⟨82, _⟩ => ⟨S10000, .f32⟩
  | .hbm, ⟨83, _⟩ => ⟨S_, .f32⟩
  | .hbm, ⟨84, _⟩ => ⟨S_, .f32⟩
  | .hbm, ⟨85, _⟩ => ⟨S10000, .f32⟩
  | .hbm, ⟨86, _⟩ => ⟨S10000, .f32⟩
  | .hbm, ⟨87, _⟩ => ⟨S_, .i32⟩
  | .hbm, ⟨88, _⟩ => ⟨S330000, .i32⟩
  | .hbm, ⟨89, _⟩ => ⟨S330000, .i1⟩
  | .hbm, ⟨90, _⟩ => ⟨S_, .i32⟩
  | .hbm, ⟨91, _⟩ => ⟨S330000, .i32⟩
  | .hbm, ⟨92, _⟩ => ⟨S330000, .i32⟩
  | .hbm, ⟨93, _⟩ => ⟨S330000, .i32⟩
  | .hbm, ⟨94, _⟩ => ⟨S330000x1, .i32⟩
  | .hbm, ⟨95, _⟩ => ⟨S330000, .f32⟩
  | .hbm, ⟨96, _⟩ => ⟨S_, .i32⟩
  | .hbm, ⟨97, _⟩ => ⟨S330000, .i32⟩
  | .hbm, ⟨98, _⟩ => ⟨S330000, .i1⟩
  | .hbm, ⟨99, _⟩ => ⟨S_, .i32⟩
  | .hbm, ⟨100, _⟩ => ⟨S330000, .i32⟩
  | .hbm, ⟨101, _⟩ => ⟨S330000, .i32⟩
  | .hbm, ⟨102, _⟩ => ⟨S330000, .i32⟩
  | .hbm, ⟨103, _⟩ => ⟨S330000x1, .i32⟩
  | .hbm, ⟨104, _⟩ => ⟨S330000, .f32⟩
  | .hbm, ⟨105, _⟩ => ⟨S330000, .f32⟩
  | .hbm, ⟨106, _⟩ => ⟨S_, .i32⟩
  | .hbm, ⟨107, _⟩ => ⟨S330000, .i32⟩
  | .hbm, ⟨108, _⟩ => ⟨S330000, .i1⟩
  | .hbm, ⟨109, _⟩ => ⟨S_, .i32⟩
  | .hbm, ⟨110, _⟩ => ⟨S330000, .i32⟩
  | .hbm, ⟨111, _⟩ => ⟨S330000, .i32⟩
  | .hbm, ⟨112, _⟩ => ⟨S330000, .i32⟩
  | .hbm, ⟨113, _⟩ => ⟨S330000x1, .i32⟩
  | .hbm, ⟨114, _⟩ => ⟨S330000x128, .f32⟩
  | .hbm, ⟨115, _⟩ => ⟨S330000x1, .f32⟩
  | .hbm, ⟨116, _⟩ => ⟨S330000x128, .f32⟩
  | .hbm, ⟨117, _⟩ => ⟨S330000x128, .f32⟩
  | .hbm, ⟨118, _⟩ => ⟨S_, .f32⟩
  | .hbm, ⟨119, _⟩ => ⟨S10000x128, .f32⟩
  | .hbm, ⟨120, _⟩ => ⟨S330000x1, .i32⟩
  | .hbm, ⟨121, _⟩ => ⟨S10000x128, .f32⟩
  | .hbm, ⟨122, _⟩ => ⟨S1x128, .f32⟩
  | .hbm, ⟨123, _⟩ => ⟨S10000x128, .f32⟩
  | .hbm, ⟨124, _⟩ => ⟨S10000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S2000x512_S512x256_S2000x256_1_0_0_1_n_n_wf : DotDims.WF S2000x512 S512x256 S2000x256 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S2000x256_S256x128_S2000x128_1_0_0_1_n_n_wf : DotDims.WF S2000x256 S256x128 S2000x128 [1] [0] [0] [1] [] []
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S10000x256.size a
  hwx0_2 : ∀ i : grid0.Coords, EltTy.bits .f32 = 32 ∨ (Rect.block (s := S10000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S10000x128.size a
  hwx1_2 : ∀ i : grid1.Coords, EltTy.bits .f32 = 32 ∨ (Rect.block (s := S10000x128) S2000x128.size (cc1_transform_2 i) (hinb1_2 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x512 : Shape := ⟨2, ![10000, 512]⟩
abbrev S2x320000 : Shape := ⟨2, ![2, 320000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x320000 : Shape := ⟨2, ![1, 320000]⟩
abbrev S320000 : Shape := ⟨1, ![320000]⟩
abbrev S10000x256 : Shape := ⟨2, ![10000, 256]⟩
abbrev S10000 : Shape := ⟨1, ![10000]⟩
abbrev S330000 : Shape := ⟨1, ![330000]⟩
abbrev S_ : Shape := ⟨0, ![]⟩
abbrev S330000x1 : Shape := ⟨2, ![330000, 1]⟩
abbrev S330000x256 : Shape := ⟨2, ![330000, 256]⟩
abbrev S1x256 : Shape := ⟨2, ![1, 256]⟩
abbrev S10000x128 : Shape := ⟨2, ![10000, 128]⟩
abbrev S330000x128 : Shape := ⟨2, ![330000, 128]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x320000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S10000x256, .f32⟩
  | .hbm, ⟨11, _⟩ => ⟨S10000, .i32⟩
  | .hbm, ⟨12, _⟩ => ⟨S330000, .i32⟩
  | .hbm, ⟨13, _⟩ => ⟨S330000, .i32⟩
  | .hbm, ⟨14, _⟩ => ⟨S_, .f32⟩
  | .hbm, ⟨15, _⟩ => ⟨S330000, .f32⟩
  | .hbm, ⟨16, _⟩ => ⟨S_, .f32⟩
  | .hbm, ⟨17, _⟩ => ⟨S10000, .f32⟩
  | .hbm, ⟨18, _⟩ => ⟨S330000x1, .i32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S10000, .i1⟩
  | .hbm, ⟨23, _⟩ => ⟨S10000, .f32⟩
  | .hbm, ⟨24, _⟩ => ⟨S_, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S_, .i32⟩
  | .hbm, ⟨29, _⟩ => ⟨S330000, .i32⟩
  | .hbm, ⟨30, _⟩ => ⟨S330000, .i1⟩
  | .hbm, ⟨31, _⟩ => ⟨S_, .i32⟩
  | .hbm, ⟨32, _⟩ => ⟨S330000, .i32⟩
  | .hbm, ⟨33, _⟩ => ⟨S330000, .i32⟩
  | .hbm, ⟨34, _⟩ => ⟨S330000, .i32⟩
  | .hbm, ⟨35, _⟩ => ⟨S330000x1, .i32⟩
  | .hbm, ⟨36, _⟩ => ⟨S330000, .f32⟩
  | .hbm, ⟨37, _⟩ => ⟨S_, .i32⟩
  | .hbm, ⟨38, _⟩ => ⟨S330000, .i32⟩
  | .hbm, ⟨39, _⟩ => ⟨S330000, .i1⟩
  | .hbm, ⟨40, _⟩ => ⟨S_, .i32⟩
  | .hbm, ⟨41, _⟩ => ⟨S330000, .i32⟩
  | .hbm, ⟨42, _⟩ => ⟨S330000, .i32⟩
  | .hbm, ⟨43, _⟩ => ⟨S330000, .i32⟩
  | .hbm, ⟨44, _⟩ => ⟨S330000x1, .i32⟩
  | .hbm, ⟨45, _⟩ => ⟨S330000, .f32⟩
  | .hbm, ⟨46, _⟩ => ⟨S330000, .f32⟩
  | .hbm, ⟨47, _⟩ => ⟨S_, .i32⟩
  | .hbm, ⟨48, _⟩ => ⟨S330000, .i32⟩
  | .hbm, ⟨49, _⟩ => ⟨S330000, .i1⟩
  | .hbm, ⟨50, _⟩ => ⟨S_, .i32⟩
  | .hbm, ⟨51, _⟩ => ⟨S330000, .i32⟩
  | .hbm, ⟨52, _⟩ => ⟨S330000, .i32⟩
  | .hbm, ⟨53, _⟩ => ⟨S330000, .i32⟩
  | .hbm, ⟨54, _⟩ => ⟨S330000x1, .i32⟩
  | .hbm, ⟨55, _⟩ => ⟨S330000x256, .f32⟩
  | .hbm, ⟨56, _⟩ => ⟨S330000x1, .f32⟩
  | .hbm, ⟨57, _⟩ => ⟨S330000x256, .f32⟩
  | .hbm, ⟨58, _⟩ => ⟨S330000x256, .f32⟩
  | .hbm, ⟨59, _⟩ => ⟨S_, .f32⟩
  | .hbm, ⟨60, _⟩ => ⟨S10000x256, .f32⟩
  | .hbm, ⟨61, _⟩ => ⟨S330000x1, .i32⟩
  | .hbm, ⟨62, _⟩ => ⟨S10000x256, .f32⟩
  | .hbm, ⟨63, _⟩ => ⟨S1x256, .f32⟩
  | .hbm, ⟨64, _⟩ => ⟨S10000x256, .f32⟩
  | .hbm, ⟨65, _⟩ => ⟨S10000x256, .f32⟩
  | .hbm, ⟨66, _⟩ => ⟨S_, .f32⟩
  | .hbm, ⟨67, _⟩ => ⟨S10000x256, .f32⟩
  | .hbm, ⟨68, _⟩ => ⟨S10000x256, .f32⟩
  | .hbm, ⟨69, _⟩ => ⟨S10000x128, .f32⟩
  | .hbm, ⟨70, _⟩ => ⟨S10000, .i32⟩
  | .hbm, ⟨71, _⟩ => ⟨S330000, .i32⟩
  | .hbm, ⟨72, _⟩ => ⟨S330000, .i32⟩
  | .hbm, ⟨73, _⟩ => ⟨S_, .f32⟩
  | .hbm, ⟨74, _⟩ => ⟨S330000, .f32⟩
  | .hbm, ⟨75, _⟩ => ⟨S_, .f32⟩
  | .hbm, ⟨76, _⟩ => ⟨S10000, .f32⟩
  | .hbm, ⟨77, _⟩ => ⟨S330000x1, .i32⟩
  | .hbm, ⟨78, _⟩ => ⟨S10000, .f32⟩
  | .hbm, ⟨79, _⟩ => ⟨S_, .f32⟩
  | .hbm, ⟨80, _⟩ => ⟨S10000, .f32⟩
  | .hbm, ⟨81, _⟩ => ⟨S10000, .i1⟩
  | .hbm, ⟨82, _⟩ => ⟨S10000, .f32⟩
  | .hbm, ⟨83, _⟩ => ⟨S_, .f32⟩
  | .hbm, ⟨84, _⟩ => ⟨S_, .f32⟩
  | .hbm, ⟨85, _⟩ => ⟨S10000, .f32⟩
  | .hbm, ⟨86, _⟩ => ⟨S10000, .f32⟩
  | .hbm, ⟨87, _⟩ => ⟨S_, .i32⟩
  | .hbm, ⟨88, _⟩ => ⟨S330000, .i32⟩
  | .hbm, ⟨89, _⟩ => ⟨S330000, .i1⟩
  | .hbm, ⟨90, _⟩ => ⟨S_, .i32⟩
  | .hbm, ⟨91, _⟩ => ⟨S330000, .i32⟩
  | .hbm, ⟨92, _⟩ => ⟨S330000, .i32⟩
  | .hbm, ⟨93, _⟩ => ⟨S330000, .i32⟩
  | .hbm, ⟨94, _⟩ => ⟨S330000x1, .i32⟩
  | .hbm, ⟨95, _⟩ => ⟨S330000, .f32⟩
  | .hbm, ⟨96, _⟩ => ⟨S_, .i32⟩
  | .hbm, ⟨97, _⟩ => ⟨S330000, .i32⟩
  | .hbm, ⟨98, _⟩ => ⟨S330000, .i1⟩
  | .hbm, ⟨99, _⟩ => ⟨S_, .i32⟩
  | .hbm, ⟨100, _⟩ => ⟨S330000, .i32⟩
  | .hbm, ⟨101, _⟩ => ⟨S330000, .i32⟩
  | .hbm, ⟨102, _⟩ => ⟨S330000, .i32⟩
  | .hbm, ⟨103, _⟩ => ⟨S330000x1, .i32⟩
  | .hbm, ⟨104, _⟩ => ⟨S330000, .f32⟩
  | .hbm, ⟨105, _⟩ => ⟨S330000, .f32⟩
  | .hbm, ⟨106, _⟩ => ⟨S_, .i32⟩
  | .hbm, ⟨107, _⟩ => ⟨S330000, .i32⟩
  | .hbm, ⟨108, _⟩ => ⟨S330000, .i1⟩
  | .hbm, ⟨109, _⟩ => ⟨S_, .i32⟩
  | .hbm, ⟨110, _⟩ => ⟨S330000, .i32⟩
  | .hbm, ⟨111, _⟩ => ⟨S330000, .i32⟩
  | .hbm, ⟨112, _⟩ => ⟨S330000, .i32⟩
  | .hbm, ⟨113, _⟩ => ⟨S330000x1, .i32⟩
  | .hbm, ⟨114, _⟩ => ⟨S330000x128, .f32⟩
  | .hbm, ⟨115, _⟩ => ⟨S330000x1, .f32⟩
  | .hbm, ⟨116, _⟩ => ⟨S330000x128, .f32⟩
  | .hbm, ⟨117, _⟩ => ⟨S330000x128, .f32⟩
  | .hbm, ⟨118, _⟩ => ⟨S_, .f32⟩
  | .hbm, ⟨119, _⟩ => ⟨S10000x128, .f32⟩
  | .hbm, ⟨120, _⟩ => ⟨S330000x1, .i32⟩
  | .hbm, ⟨121, _⟩ => ⟨S10000x128, .f32⟩
  | .hbm, ⟨122, _⟩ => ⟨S1x128, .f32⟩
  | .hbm, ⟨123, _⟩ => ⟨S10000x128, .f32⟩
  | .hbm, ⟨124, _⟩ => ⟨S10000x128, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x512_S512x256_S10000x256_1_0_0_1_n_n_wf : DotDims.WF S10000x512 S512x256 S10000x256 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S10000x256_S256x128_S10000x128_1_0_0_1_n_n_wf : DotDims.WF S10000x256 S256x128 S10000x128 [1] [0] [0] [1] [] []
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1

variable [Facts₀]

def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf

class Facts : Prop extends Facts₀ where

variable [Facts]
-- ==== Proof.Product0.lean ====
/- The first product kernel's body, read at an index on the extended reals.

   The body rounds its two loaded blocks to bf16, which changes nothing on the extended reals, multiplies them on the
   matrix unit into a zero accumulator, and stores the product. Entry (p, q) of the stored 2000 × 256 block is therefore
   the plain sum, over the 512 contracted positions k, of a[p, k] · b[k, q]. -/
import proofs.«176515_j27788438405708_1_alg».proof.Proof.Gen.KernelIdeal.Skeleton
import Idealize.ShloMosaic.Lib.ValueIdx
import Idealize.ShloMosaic.PureOps.Ideal.Laws

noncomputable section

namespace Cert.KernelIdeal.Product0

open Cert.KernelIdeal Cert.KernelIdeal.Gen Idealize.ShloMosaic Idealize.ShloMosaic.TcCoe Idealize.SL.Sem

/-! The matrix unit's operand indices at output index `i` and contracted index `q`, axis by axis: the left operand is
    read at (row of `i`, `q`), the right one at (`q`, column of `i`). -/

theorem lhs_axis0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs_axis1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem rhs_axis0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem rhs_axis1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- Where entry `j` of the product reads the left block at contracted position `k`: row of `j`, column `k`. -/
abbrev lix (j : S2000x256.Idx) (k : Fin 512) : S2000x512.Idx := fun a => match a with
  | ⟨0, _⟩ => ⟨(j 0).val, (j 0).isLt⟩
  | ⟨1, _⟩ => ⟨k.val, k.isLt⟩
/-- Where it reads the right block: row `k`, column of `j`. -/
abbrev rix (j : S2000x256.Idx) (k : Fin 512) : S512x256.Idx := fun a => match a with
  | ⟨0, _⟩ => ⟨k.val, k.isLt⟩
  | ⟨1, _⟩ => ⟨(j 1).val, (j 1).isLt⟩

/-- The stored block at `j`: Σ_k a[row j, k] · b[k, column j]. The two roundings to bf16 are the identity here and the
    accumulator is the zero splat, so the matrix unit's value is the bare sum; the contracted index shape has one axis of
    512 positions, re-indexed by `Fin 512`. -/
theorem payload_apply (a : Vec Ideal S2000x512 .f32) (b : Vec Ideal S512x256 .f32) (j : S2000x256.Idx) :
    k0_pay1 (F := Ideal) a b j = ∑ k : Fin 512, a (lix j k) * b (rix j k) := by
  unfold k0_pay1
  show FloatOps.matmul (F := Ideal) dot_S2000x512_S512x256_S2000x256_1_0_0_1_n_n none (truncf (F := Ideal) .bf16 a bitsLt_bf16_f32)
    (truncf (F := Ideal) .bf16 b bitsLt_bf16_f32) (constant (F := Ideal) S2000x256 .f32 0x00000000#32) j = _
  rw [Ideal.matmul_constant_zero_apply, ← Equiv.sum_comp (ValueIdx.contrEquiv1 dot_S2000x512_S512x256_S2000x256_1_0_0_1_n_n 512 rfl rfl).symm]
  refine Finset.sum_congr rfl fun k _ => ?_
  have hk := ValueIdx.contrEquiv1_symm_val dot_S2000x512_S512x256_S2000x256_1_0_0_1_n_n 512 rfl rfl k
  have el : dot_S2000x512_S512x256_S2000x256_1_0_0_1_n_n.lhsIdx j ((ValueIdx.contrEquiv1 dot_S2000x512_S512x256_S2000x256_1_0_0_1_n_n 512 rfl rfl).symm k) = lix j k := funext fun a => Fin.ext (by
    match a with
    | ⟨0, _⟩ => exact lhs_axis0 _ _
    | ⟨1, _⟩ => exact (lhs_axis1 _ _).trans hk)
  have er : dot_S2000x512_S512x256_S2000x256_1_0_0_1_n_n.rhsIdx j ((ValueIdx.contrEquiv1 dot_S2000x512_S512x256_S2000x256_1_0_0_1_n_n 512 rfl rfl).symm k) = rix j k := funext fun a => Fin.ext (by
    match a with
    | ⟨0, _⟩ => exact (rhs_axis0 _ _).trans hk
    | ⟨1, _⟩ => exact rhs_axis1 _ _)
  rw [el, er]
  rfl

end Cert.KernelIdeal.Product0

end
-- ==== Proof.Region0.lean ====
/- The first pallas_call as a whole: its output array after the launch is the product of its two input arrays.

   The launch runs the body at 5 grid points. Point t reads rows 2000·t … 2000·t + 1999 of the left array (all 512
   columns) and the whole right array, and writes rows 2000·t … 2000·t + 1999 of the output. Entry (p, q) of the block
   it writes is Σ_k a[p, k] · b[k, q] over the block it read (Product0), which is Σ_k X[2000·t + p, k] · W[k, q]: the
   block of ONE whole-array function. The five blocks tile the 10000 rows, so the array ends at that function. -/
import proofs.«176515_j27788438405708_1_alg».proof.Proof.Gen.KernelIdeal.Frame
import proofs.«176515_j27788438405708_1_alg».proof.Proof.Product0
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)

/-- Where entry `i` of the whole product reads the left array at contracted position `k`: row of `i`, column `k`. -/
abbrev lixA (i : S10000x256.Idx) (k : Fin 512) : S10000x512.Idx := fun a => match a with
  | ⟨0, _⟩ => ⟨(i 0).val, (i 0).isLt⟩
  | ⟨1, _⟩ => ⟨k.val, k.isLt⟩
/-- Where it reads the right array: row `k`, column of `i`. -/
abbrev rixA (i : S10000x256.Idx) (k : Fin 512) : S512x256.Idx := fun a => match a with
  | ⟨0, _⟩ => ⟨k.val, k.isLt⟩
  | ⟨1, _⟩ => ⟨(i 1).val, (i 1).isLt⟩

/-- The whole product X · W on the extended reals: entry (r, q) is Σ_k X[r, k] · W[k, q]. -/
def product (X : Vec Ideal S10000x512 .f32) (W : Vec Ideal S512x256 .f32) : Vec Ideal S10000x256 .f32 :=
  fun i => ∑ k : Fin 512, X (lixA i k) * W (rixA i k)

/-- A block the body stores is a block of the whole product: if the left block `a` is rows 2000·r … of `X`, the right
    block is all of `W`, and `i` is entry `j` of the block shifted down by 2000·r rows, the stored entry is the
    product's entry `i`. Stated over plain arrays and indices. -/
theorem block_entry (X : Vec Ideal S10000x512 .f32) (W : Vec Ideal S512x256 .f32)
    (a : Vec Ideal S2000x512 .f32) (b : Vec Ideal S512x256 .f32) (r : Nat)
    (ha : ∀ (y : S2000x512.Idx) (z : S10000x512.Idx), (z 0).val = r * 2000 + (y 0).val → (z 1).val = (y 1).val → a y = X z)
    (hb : b = W) (j : S2000x256.Idx) (i : S10000x256.Idx)
    (hi0 : (i 0).val = r * 2000 + (j 0).val) (hi1 : (i 1).val = (j 1).val) :
    k0_pay1 (F := Ideal) a b j = product X W i := by
  rw [Product0.payload_apply, hb]
  unfold product
  refine Finset.sum_congr rfl fun k _ => ?_
  rw [ha (Product0.lix j k) (lixA i k) hi0 rfl]
  have e : Product0.rix j k = rixA i k := funext fun a => Fin.ext (by
    match a with
    | ⟨0, _⟩ => rfl
    | ⟨1, _⟩ => exact hi1.symm)
  rw [e]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 5 grid points: the left and output windows move down one block of rows per
    point, the right window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block of rows is some point's. -/
theorem idx_onto : ∀ q0 : Fin 5, ∃ t : Fin cfg0.N, win0_2.index t = ![q0.val, 0] :=
  (by decide +kernel : ∀ q0 : Fin 5, ∃ t : Fin grid0.N, win0_2.index t = ![q0.val, 0])

/-- What point `t` writes back is block `t` of the whole product of the two input arrays as the region finds them. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  obtain ⟨e0, e1, e2, e3, e4, e5⟩ := idx_facts t
  funext j
  refine block_entry (V c main_arg0) (V c main_arg2) (iblk0 V c 0 t) (iblk0 V c 1 t) t.val ?_ ?_ j (((cfg0.win 2).blk t).view.emb j) ?_ ?_
  · intro y z h0 h1
    show V c main_arg0 (((cfg0.win 0).blk t).view.emb y) = V c main_arg0 z
    refine congrArg _ ?_
    funext a; apply Fin.ext
    match a with
    | ⟨0, _⟩ => show win0_0.index t (0 : Fin 2) * 2000 + 1 * (y 0).val = (z 0).val; omega
    | ⟨1, _⟩ => show win0_0.index t (1 : Fin 2) * 512 + 1 * (y 1).val = (z 1).val; omega
  · funext y
    show V c main_arg2 (((cfg0.win 1).blk t).view.emb y) = V c main_arg2 y
    refine congrArg _ ?_
    funext a; apply Fin.ext
    match a with
    | ⟨0, _⟩ => show win0_1.index t (0 : Fin 2) * 512 + 1 * (y 0).val = (y 0).val; omega
    | ⟨1, _⟩ => show win0_1.index t (1 : Fin 2) * 256 + 1 * (y 1).val = (y 1).val; omega
  · show win0_2.index t (0 : Fin 2) * 2000 + 1 * (j 0).val = t.val * 2000 + (j 0).val; omega
  · show win0_2.index t (1 : Fin 2) * 256 + 1 * (j 1).val = (j 1).val; omega

/-- An index of the output array is in point `t`'s block iff each coordinate is in the block's range on its axis. -/
theorem mem_blk (t : Fin cfg0.N) (i : S10000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v4).slice (win0_2.rect t)).set ↔ _
  rw [View.set_slice_whole, Rect.mem_set_unit]
  exact Iff.rfl

/-- Every index of the output array is in the block of the point that owns its row: row r belongs to point r / 2000. -/
theorem cover (i : S10000x256.Idx) : ∃ t : Fin cfg0.N, (cfg0.win 2).flush t = true ∧ i ∈ ((cfg0.win 2).blk t).view.set := by
  have hi0 : (i 0).val < 10000 := (i 0).isLt
  have hi1 : (i 1).val < 256 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The output array after the launch: the whole product of the two input arrays as the region finds them. -/
theorem final (c : Dev nD) : (dat0 V c).arrAt 2 cfg0.N = product (V c main_arg0) (V c main_arg2) :=
  (dat0 V c).arrAt_eq_of_cover 2 (product (V c main_arg0) (V c main_arg2)) (fun t _ => flushed_eq V c t) cover

end Cert.KernelIdeal.Region0

end
-- ==== Proof.Product1.lean ====
/- The second product kernel's body, read at an index on the extended reals.

   The body re-casts its loaded left block to its own shape (nothing moves), rounds both blocks to bf16, which changes
   nothing on the extended reals, multiplies them on the matrix unit into a zero accumulator, and stores the product.
   Entry (p, q) of the stored 2000 × 128 block is the plain sum, over the 256 contracted positions k, of a[p, k] · b[k, q]. -/
import proofs.«176515_j27788438405708_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Product1

open Cert.KernelIdeal Cert.KernelIdeal.Gen Idealize.ShloMosaic Idealize.ShloMosaic.TcCoe Idealize.SL.Sem

/-! The matrix unit's operand indices at output index `i` and contracted index `q`, axis by axis: the left operand is
    read at (row of `i`, `q`), the right one at (`q`, column of `i`). -/

theorem lhs_axis0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_axis1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_axis0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_axis1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Where entry `j` of the product reads the left block at contracted position `k`: row of `j`, column `k`. -/
abbrev lix (j : S2000x128.Idx) (k : Fin 256) : S2000x256.Idx := fun a => match a with
  | ⟨0, _⟩ => ⟨(j 0).val, (j 0).isLt⟩
  | ⟨1, _⟩ => ⟨k.val, k.isLt⟩
/-- Where it reads the right block: row `k`, column of `j`. -/
abbrev rix (j : S2000x128.Idx) (k : Fin 256) : S256x128.Idx := fun a => match a with
  | ⟨0, _⟩ => ⟨k.val, k.isLt⟩
  | ⟨1, _⟩ => ⟨(j 1).val, (j 1).isLt⟩

/-- The stored block at `j`: Σ_k a[row j, k] · b[k, column j]. The cast of the left block to its own shape and the two
    roundings to bf16 are the identity here, and the accumulator is the zero splat, so the matrix unit's value is the bare
    sum; the contracted index shape has one axis of 256 positions, re-indexed by `Fin 256`. -/
theorem payload_apply (a : Vec Ideal S2000x256 .f32) (b : Vec Ideal S256x128 .f32) (j : S2000x128.Idx) :
    k1_pay1 (F := Ideal) a b j = ∑ k : Fin 256, a (lix j k) * b (rix j k) := by
  unfold k1_pay1
  show FloatOps.matmul (F := Ideal) dot_S2000x256_S256x128_S2000x128_1_0_0_1_n_n none
    (truncf (F := Ideal) .bf16 (shapeCast S2000x256 a shapeCasts_S2000x256_S2000x256) bitsLt_bf16_f32)
    (truncf (F := Ideal) .bf16 b bitsLt_bf16_f32) (constant (F := Ideal) S2000x128 .f32 0x00000000#32) j = _
  rw [shapeCast_self, Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = lix j k := funext fun a => Fin.ext (by
    match a with
    | ⟨0, _⟩ => exact lhs_axis0 _ _
    | ⟨1, _⟩ => exact (lhs_axis1 _ _).trans hk)
  have er : dot_S2000x256_S256x128_S2000x128_1_0_0_1_n_n.rhsIdx j ((ValueIdx.contrEquiv1 dot_S2000x256_S256x128_S2000x128_1_0_0_1_n_n 256 rfl rfl).symm k) = rix j k := funext fun a => Fin.ext (by
    match a with
    | ⟨0, _⟩ => exact (rhs_axis0 _ _).trans hk
    | ⟨1, _⟩ => exact rhs_axis1 _ _)
  rw [el, er]
  rfl

end Cert.KernelIdeal.Product1

end
-- ==== Proof.Region1.lean ====
/- The second pallas_call as a whole: its output array after the launch is the product of its two input arrays.

   The launch runs the body at 5 grid points. Point t reads rows 2000·t … 2000·t + 1999 of the left array (all 256
   columns) and the whole right array, and writes rows 2000·t … 2000·t + 1999 of the output. Entry (p, q) of the block
   it writes is Σ_k a[p, k] · b[k, q] over the block it read (Product1), which is Σ_k X[2000·t + p, k] · W[k, q]: the
   block of ONE whole-array function. The five blocks tile the 10000 rows, so the array ends at that function. -/
import proofs.«176515_j27788438405708_1_alg».proof.Proof.Gen.KernelIdeal.Frame
import proofs.«176515_j27788438405708_1_alg».proof.Proof.Product1
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat Cfg Window)

/-- Where entry `i` of the whole product reads the left array at contracted position `k`: row of `i`, column `k`. -/
abbrev lixA (i : S10000x128.Idx) (k : Fin 256) : S10000x256.Idx := fun a => match a with
  | ⟨0, _⟩ => ⟨(i 0).val, (i 0).isLt⟩
  | ⟨1, _⟩ => ⟨k.val, k.isLt⟩
/-- Where it reads the right array: row `k`, column of `i`. -/
abbrev rixA (i : S10000x128.Idx) (k : Fin 256) : S256x128.Idx := fun a => match a with
  | ⟨0, _⟩ => ⟨k.val, k.isLt⟩
  | ⟨1, _⟩ => ⟨(i 1).val, (i 1).isLt⟩

/-- The whole product X · W on the extended reals: entry (r, q) is Σ_k X[r, k] · W[k, q]. -/
def product (X : Vec Ideal S10000x256 .f32) (W : Vec Ideal S256x128 .f32) : Vec Ideal S10000x128 .f32 :=
  fun i => ∑ k : Fin 256, X (lixA i k) * W (rixA i k)

/-- A block the body stores is a block of the whole product: if the left block `a` is rows 2000·r … of `X`, the right
    block is all of `W`, and `i` is entry `j` of the block shifted down by 2000·r rows, the stored entry is the
    product's entry `i`. Stated over plain arrays and indices. -/
theorem block_entry (X : Vec Ideal S10000x256 .f32) (W : Vec Ideal S256x128 .f32)
    (a : Vec Ideal S2000x256 .f32) (b : Vec Ideal S256x128 .f32) (r : Nat)
    (ha : ∀ (y : S2000x256.Idx) (z : S10000x256.Idx), (z 0).val = r * 2000 + (y 0).val → (z 1).val = (y 1).val → a y = X z)
    (hb : b = W) (j : S2000x128.Idx) (i : S10000x128.Idx)
    (hi0 : (i 0).val = r * 2000 + (j 0).val) (hi1 : (i 1).val = (j 1).val) :
    k1_pay1 (F := Ideal) a b j = product X W i := by
  rw [Product1.payload_apply, hb]
  unfold product
  refine Finset.sum_congr rfl fun k _ => ?_
  rw [ha (Product1.lix j k) (lixA i k) hi0 rfl]
  have e : Product1.rix j k = rixA i k := funext fun a => Fin.ext (by
    match a with
    | ⟨0, _⟩ => rfl
    | ⟨1, _⟩ => exact hi1.symm)
  rw [e]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 5 grid points: the left and output windows move down one block of rows per
    point, the right window stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block of rows is some point's. -/
theorem idx_onto : ∀ q0 : Fin 5, ∃ t : Fin cfg1.N, win1_2.index t = ![q0.val, 0] :=
  (by decide +kernel : ∀ q0 : Fin 5, ∃ t : Fin grid1.N, win1_2.index t = ![q0.val, 0])

/-- What point `t` writes back is block `t` of the whole product of the two input arrays as the region finds them. -/
theorem flushed_eq (c : Dev nD) (t : Fin cfg1.N) :
    (dat1 V c).flushed 2 t = ((cfg1.win 2).blk t).view.read (Elt Ideal) (product (V c main_v47) (V c main_arg4)) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x128) hz]
  obtain ⟨e0, e1, e2, e3, e4, e5⟩ := idx_facts t
  funext j
  refine block_entry (V c main_v47) (V c main_arg4) (iblk1 V c 0 t) (iblk1 V c 1 t) t.val ?_ ?_ j (((cfg1.win 2).blk t).view.emb j) ?_ ?_
  · intro y z h0 h1
    show V c main_v47 (((cfg1.win 0).blk t).view.emb y) = V c main_v47 z
    refine congrArg _ ?_
    funext a; apply Fin.ext
    match a with
    | ⟨0, _⟩ => show win1_0.index t (0 : Fin 2) * 2000 + 1 * (y 0).val = (z 0).val; omega
    | ⟨1, _⟩ => show win1_0.index t (1 : Fin 2) * 256 + 1 * (y 1).val = (z 1).val; omega
  · funext y
    show V c main_arg4 (((cfg1.win 1).blk t).view.emb y) = V c main_arg4 y
    refine congrArg _ ?_
    funext a; apply Fin.ext
    match a with
    | ⟨0, _⟩ => show win1_1.index t (0 : Fin 2) * 256 + 1 * (y 0).val = (y 0).val; omega
    | ⟨1, _⟩ => show win1_1.index t (1 : Fin 2) * 128 + 1 * (y 1).val = (y 1).val; omega
  · show win1_2.index t (0 : Fin 2) * 2000 + 1 * (j 0).val = t.val * 2000 + (j 0).val; omega
  · show win1_2.index t (1 : Fin 2) * 128 + 1 * (j 1).val = (j 1).val; omega

/-- An index of the output array is in point `t`'s block iff each coordinate is in the block's range on its axis. -/
theorem mem_blk (t : Fin cfg1.N) (i : S10000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v48).slice (win1_2.rect t)).set ↔ _
  rw [View.set_slice_whole, Rect.mem_set_unit]
  exact Iff.rfl

/-- Every index of the output array is in the block of the point that owns its row: row r belongs to point r / 2000. -/
theorem cover (i : S10000x128.Idx) : ∃ t : Fin cfg1.N, (cfg1.win 2).flush t = true ∧ i ∈ ((cfg1.win 2).blk t).view.set := by
  have hi0 : (i 0).val < 10000 := (i 0).isLt
  have hi1 : (i 1).val < 128 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The output array after the launch: the whole product of the two input arrays as the region finds them. -/
theorem final (c : Dev nD) : (dat1 V c).arrAt 2 cfg1.N = product (V c main_v47) (V c main_arg4) :=
  (dat1 V c).arrAt_eq_of_cover 2 (product (V c main_v47) (V c main_arg4)) (fun t _ => flushed_eq V c t) cover

end Cert.KernelIdeal.Region1

end
-- ==== Proof.RefProducts.lean ====
/- The reference's two matrix products, read at an index on the extended reals.

   jnp's `x @ W` prints as a host dot_general contracting the left operand's columns with the right operand's rows. On
   the extended reals its entry (r, q) is the plain sum Σ_k X[r, k] · W[k, q]: the contracted index shape has one axis,
   re-indexed here by `Fin 512` (first layer) and `Fin 256` (second layer). -/
import proofs.«176515_j27788438405708_1_alg».proof.Proof.Gen.ReferenceIdeal
import Idealize.ShloMosaic.Lib.ValueIdx
import Idealize.ShloMosaic.PureOps.Ideal.Laws

noncomputable section

open Cert.ReferenceIdeal Cert.ReferenceIdeal.Gen Idealize.ShloMosaic Idealize.ShloMosaic.TcCoe Idealize.SL.Sem

/-! ## First layer: [10000, 512] · [512, 256] -/

namespace Cert.ReferenceIdeal.Dot1

theorem lhs_axis0 (i : S10000x256.Idx) (q : dot_S10000x512_S512x256_S10000x256_1_0_0_1_n_n.contr.Idx) :
    (dot_S10000x512_S512x256_S10000x256_1_0_0_1_n_n.lhsIdx i q 0).val = (i 0).val := by
  unfold DotDims.lhsIdx
  rw [dif_neg (show ¬(0 : Fin S10000x512.rank) ∈ dot_S10000x512_S512x256_S10000x256_1_0_0_1_n_n.lhsBatch by decide), dif_pos (show (0 : Fin S10000x512.rank) ∈ dot_S10000x512_S512x256_S10000x256_1_0_0_1_n_n.lhsNonContracting by decide)]
  rfl
theorem lhs_axis1 (i : S10000x256.Idx) (q : dot_S10000x512_S512x256_S10000x256_1_0_0_1_n_n.contr.Idx) :
    (dot_S10000x512_S512x256_S10000x256_1_0_0_1_n_n.lhsIdx i q 1).val = (q ⟨0, by decide⟩).val :=
  dot_S10000x512_S512x256_S10000x256_1_0_0_1_n_n.lhsIdx_val_of_single rfl i q
theorem rhs_axis0 (i : S10000x256.Idx) (q : dot_S10000x512_S512x256_S10000x256_1_0_0_1_n_n.contr.Idx) :
    (dot_S10000x512_S512x256_S10000x256_1_0_0_1_n_n.rhsIdx i q 0).val = (q ⟨0, by decide⟩).val :=
  dot_S10000x512_S512x256_S10000x256_1_0_0_1_n_n.rhsIdx_val_of_single rfl i q
theorem rhs_axis1 (i : S10000x256.Idx) (q : dot_S10000x512_S512x256_S10000x256_1_0_0_1_n_n.contr.Idx) :
    (dot_S10000x512_S512x256_S10000x256_1_0_0_1_n_n.rhsIdx i q 1).val = (i 1).val := by
  unfold DotDims.rhsIdx
  rw [dif_neg (show ¬(1 : Fin S512x256.rank) ∈ dot_S10000x512_S512x256_S10000x256_1_0_0_1_n_n.rhsBatch by decide), dif_pos (show (1 : Fin S512x256.rank) ∈ dot_S10000x512_S512x256_S10000x256_1_0_0_1_n_n.rhsNonContracting by decide)]
  rfl

/-- Where entry `i` reads the left operand at contracted position `k`: row of `i`, column `k`. -/
abbrev lix (i : S10000x256.Idx) (k : Fin 512) : S10000x512.Idx := fun a => match a with
  | ⟨0, _⟩ => ⟨(i 0).val, (i 0).isLt⟩
  | ⟨1, _⟩ => ⟨k.val, k.isLt⟩
/-- Where it reads the right operand: row `k`, column of `i`. -/
abbrev rix (i : S10000x256.Idx) (k : Fin 512) : S512x256.Idx := fun a => match a with
  | ⟨0, _⟩ => ⟨k.val, k.isLt⟩
  | ⟨1, _⟩ => ⟨(i 1).val, (i 1).isLt⟩

/-- The host's dot_general at entry `i`, on the extended reals: Σ_k X[row i, k] · W[k, column i]. -/
theorem dot_apply (X : FVec Ideal S10000x512 .f32) (W : FVec Ideal S512x256 .f32) (i : S10000x256.Idx) :
    Host.dotGeneral (F := Ideal) (φ₁ := .f32) (φ₂ := .f32) dot_S10000x512_S512x256_S10000x256_1_0_0_1_n_n none X W i = ∑ k : Fin 512, X (lix i k) * W (rix i k) := by
  simp only [Host.dotGeneral]
  rw [Ideal.dotGeneral_apply, ← Equiv.sum_comp (ValueIdx.contrEquiv1 dot_S10000x512_S512x256_S10000x256_1_0_0_1_n_n 512 rfl rfl).symm]
  refine Finset.sum_congr rfl fun k _ => ?_
  have hk := ValueIdx.contrEquiv1_symm_val dot_S10000x512_S512x256_S10000x256_1_0_0_1_n_n 512 rfl rfl k
  have el : dot_S10000x512_S512x256_S10000x256_1_0_0_1_n_n.lhsIdx i ((ValueIdx.contrEquiv1 dot_S10000x512_S512x256_S10000x256_1_0_0_1_n_n 512 rfl rfl).symm k) = lix i k := funext fun a => Fin.ext (by
    match a with
    | ⟨0, _⟩ => exact lhs_axis0 _ _
    | ⟨1, _⟩ => exact (lhs_axis1 _ _).trans hk)
  have er : dot_S10000x512_S512x256_S10000x256_1_0_0_1_n_n.rhsIdx i ((ValueIdx.contrEquiv1 dot_S10000x512_S512x256_S10000x256_1_0_0_1_n_n 512 rfl rfl).symm k) = rix i k := funext fun a => Fin.ext (by
    match a with
    | ⟨0, _⟩ => exact (rhs_axis0 _ _).trans hk
    | ⟨1, _⟩ => exact rhs_axis1 _ _)
  rw [el, er]

end Cert.ReferenceIdeal.Dot1

/-! ## Second layer: [10000, 256] · [256, 128] -/

namespace Cert.ReferenceIdeal.Dot2

theorem lhs_axis0 (i : S10000x128.Idx) (q : dot_S10000x256_S256x128_S10000x128_1_0_0_1_n_n.contr.Idx) :
    (dot_S10000x256_S256x128_S10000x128_1_0_0_1_n_n.lhsIdx i q 0).val = (i 0).val := by
  unfold DotDims.lhsIdx
  rw [dif_neg (show ¬(0 : Fin S10000x256.rank) ∈ dot_S10000x256_S256x128_S10000x128_1_0_0_1_n_n.lhsBatch by decide), dif_pos (show (0 : Fin S10000x256.rank) ∈ dot_S10000x256_S256x128_S10000x128_1_0_0_1_n_n.lhsNonContracting by decide)]
  rfl
theorem lhs_axis1 (i : S10000x128.Idx) (q : dot_S10000x256_S256x128_S10000x128_1_0_0_1_n_n.contr.Idx) :
    (dot_S10000x256_S256x128_S10000x128_1_0_0_1_n_n.lhsIdx i q 1).val = (q ⟨0, by decide⟩).val :=
  dot_S10000x256_S256x128_S10000x128_1_0_0_1_n_n.lhsIdx_val_of_single rfl i q
theorem rhs_axis0 (i : S10000x128.Idx) (q : dot_S10000x256_S256x128_S10000x128_1_0_0_1_n_n.contr.Idx) :
    (dot_S10000x256_S256x128_S10000x128_1_0_0_1_n_n.rhsIdx i q 0).val = (q ⟨0, by decide⟩).val :=
  dot_S10000x256_S256x128_S10000x128_1_0_0_1_n_n.rhsIdx_val_of_single rfl i q
theorem rhs_axis1 (i : S10000x128.Idx) (q : dot_S10000x256_S256x128_S10000x128_1_0_0_1_n_n.contr.Idx) :
    (dot_S10000x256_S256x128_S10000x128_1_0_0_1_n_n.rhsIdx i q 1).val = (i 1).val := by
  unfold DotDims.rhsIdx
  rw [dif_neg (show ¬(1 : Fin S256x128.rank) ∈ dot_S10000x256_S256x128_S10000x128_1_0_0_1_n_n.rhsBatch by decide), dif_pos (show (1 : Fin S256x128.rank) ∈ dot_S10000x256_S256x128_S10000x128_1_0_0_1_n_n.rhsNonContracting by decide)]
  rfl

/-- Where entry `i` reads the left operand at contracted position `k`: row of `i`, column `k`. -/
abbrev lix (i : S10000x128.Idx) (k : Fin 256) : S10000x256.Idx := fun a => match a with
  | ⟨0, _⟩ => ⟨(i 0).val, (i 0).isLt⟩
  | ⟨1, _⟩ => ⟨k.val, k.isLt⟩
/-- Where it reads the right operand: row `k`, column of `i`. -/
abbrev rix (i : S10000x128.Idx) (k : Fin 256) : S256x128.Idx := fun a => match a with
  | ⟨0, _⟩ => ⟨k.val, k.isLt⟩
  | ⟨1, _⟩ => ⟨(i 1).val, (i 1).isLt⟩

/-- The host's dot_general at entry `i`, on the extended reals: Σ_k X[row i, k] · W[k, column i]. -/
theorem dot_apply (X : FVec Ideal S10000x256 .f32) (W : FVec Ideal S256x128 .f32) (i : S10000x128.Idx) :
    Host.dotGeneral (F := Ideal) (φ₁ := .f32) (φ₂ := .f32) dot_S10000x256_S256x128_S10000x128_1_0_0_1_n_n none X W i = ∑ k : Fin 256, X (lix i k) * W (rix i k) := by
  simp only [Host.dotGeneral]
  rw [Ideal.dotGeneral_apply, ← Equiv.sum_comp (ValueIdx.contrEquiv1 dot_S10000x256_S256x128_S10000x128_1_0_0_1_n_n 256 rfl rfl).symm]
  refine Finset.sum_congr rfl fun k _ => ?_
  have hk := ValueIdx.contrEquiv1_symm_val dot_S10000x256_S256x128_S10000x128_1_0_0_1_n_n 256 rfl rfl k
  have el : dot_S10000x256_S256x128_S10000x128_1_0_0_1_n_n.lhsIdx i ((ValueIdx.contrEquiv1 dot_S10000x256_S256x128_S10000x128_1_0_0_1_n_n 256 rfl rfl).symm k) = lix i k := funext fun a => Fin.ext (by
    match a with
    | ⟨0, _⟩ => exact lhs_axis0 _ _
    | ⟨1, _⟩ => exact (lhs_axis1 _ _).trans hk)
  have er : dot_S10000x256_S256x128_S10000x128_1_0_0_1_n_n.rhsIdx i ((ValueIdx.contrEquiv1 dot_S10000x256_S256x128_S10000x128_1_0_0_1_n_n 256 rfl rfl).symm k) = rix i k := funext fun a => Fin.ext (by
    match a with
    | ⟨0, _⟩ => exact (rhs_axis0 _ _).trans hk
    | ⟨1, _⟩ => exact rhs_axis1 _ _)
  rw [el, er]

end Cert.ReferenceIdeal.Dot2

end
-- ==== Proof.HostSteps.lean ====
/- The host operations the two programs share, stretch by stretch, for any float family.

   The kernel program and the reference are the same sequence of host operations, but for two places where the kernel
   program launches a pallas_call and the reference applies a dot_general. Between those places the two programs run the
   same stretch of operations on buffers of the same names, so a stretch run from two memories that agree on the buffers
   it reads ends in two memories that agree on the buffers it writes. Both sides' terms are computed by the library's
   result lemmas and compared as they stand: no operation is opened, so nothing here depends on what a gather, a
   scatter-add or a reciprocal square root computes. -/
import proofs.«176515_j27788438405708_1_alg».proof.Proof.Gen.KernelIdeal.Launch
import proofs.«176515_j27788438405708_1_alg».proof.Proof.RefRun
import Idealize.ShloMosaic.Lib.StableHlo.Run
import Idealize.ShloMosaic.Lib.Pipeline.Frame

set_option maxRecDepth 16384

noncomputable section

namespace Cert.Proof.HostSteps

open Idealize.ShloMosaic Idealize.ShloMosaic.TcCoe Idealize.SL.Sem Idealize.ShloMosaic.StableHlo

variable {F : FTy → Type} [FloatOps F]

/-- What the simp pass leaves inside a concatenate's operand list, finished by rewriting: each operation's result at its
    own buffer, and at any other buffer what was there. -/
macro "results_by_rw" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-! ## The reference's 119 operations, cut at its two products and once inside each layer -/

/-- Before the first product: the two rows of the edge list cut out and flattened (4 operations). -/
abbrev refHead : List (HloOp Cert.ReferenceIdeal.τ Cert.ReferenceIdeal.sig (Elt F)) := (Cert.ReferenceIdeal.ValueP.ops (F := F)).take 4
/-- The first product, `x @ W1`. -/
abbrev refDot1 : List (HloOp Cert.ReferenceIdeal.τ Cert.ReferenceIdeal.sig (Elt F)) := ((Cert.ReferenceIdeal.ValueP.ops (F := F)).drop 4).take 1
/-- The first layer's graph side: self-loops appended to the edge rows, the degrees, their reciprocal square roots (17 operations). -/
abbrev refNorm1 : List (HloOp Cert.ReferenceIdeal.τ Cert.ReferenceIdeal.sig (Elt F)) := ((Cert.ReferenceIdeal.ValueP.ops (F := F)).drop 5).take 17
/-- The first layer's aggregation of the product over the edges, bias and ReLU (41 operations). -/
abbrev refAgg1 : List (HloOp Cert.ReferenceIdeal.τ Cert.ReferenceIdeal.sig (Elt F)) := ((Cert.ReferenceIdeal.ValueP.ops (F := F)).drop 22).take 41
/-- The second product, `h @ W2`. -/
abbrev refDot2 : List (HloOp Cert.ReferenceIdeal.τ Cert.ReferenceIdeal.sig (Elt F)) := ((Cert.ReferenceIdeal.ValueP.ops (F := F)).drop 63).take 1
/-- The second layer's graph side (17 operations). -/
abbrev refNorm2 : List (HloOp Cert.ReferenceIdeal.τ Cert.ReferenceIdeal.sig (Elt F)) := ((Cert.ReferenceIdeal.ValueP.ops (F := F)).drop 64).take 17
/-- The second layer's aggregation and bias (38 operations). -/
abbrev refAgg2 : List (HloOp Cert.ReferenceIdeal.τ Cert.ReferenceIdeal.sig (Elt F)) := (Cert.ReferenceIdeal.ValueP.ops (F := F)).drop 81

theorem ops_split : Cert.ReferenceIdeal.ValueP.ops (F := F)
    = refHead ++ (refDot1 ++ (refNorm1 ++ (refAgg1 ++ (refDot2 ++ (refNorm2 ++ refAgg2))))) := rfl

/-- The reference's run, cut the same way. -/
theorem after_ops (V : Valuation Cert.ReferenceIdeal.τ Cert.ReferenceIdeal.sig (Elt F)) :
    after Cert.ReferenceIdeal.ValueP.ops V
      = after refAgg2 (after refNorm2 (after refDot2 (after refAgg1 (after refNorm1 (after refDot1 (after refHead V)))))) := by
  rw [ops_split, StableHlo.after_append, StableHlo.after_append, StableHlo.after_append, StableHlo.after_append,
    StableHlo.after_append, StableHlo.after_append]

/-! ## Before the first product -/

/-- Both programs cut the source row out of the edge list. -/
theorem head_v1 (VK : Valuation Cert.KernelIdeal.τ Cert.KernelIdeal.sig (Elt F)) (VR : Valuation Cert.ReferenceIdeal.τ Cert.ReferenceIdeal.sig (Elt F)) (h0 : VK (Proc.devRef .tc Cert.KernelIdeal.main_arg1) = VR (Proc.devRef .tc Cert.ReferenceIdeal.main_arg1)) :
    after Cert.KernelIdeal.Gen.hostOps0 VK (Proc.devRef .tc Cert.KernelIdeal.main_v1) = after refHead VR (Proc.devRef .tc Cert.ReferenceIdeal.main_v1) := by
  simp only [refHead, Cert.KernelIdeal.Gen.hostOps0, Cert.ReferenceIdeal.ValueP.ops, List.take_succ_cons, List.take_zero, List.drop_succ_cons, List.drop_zero]
  after_results_simp
  try simp only [TRef.ofBuf, TRef.toBuf, cast_eq]
  try rw [h0]
  try rfl
/-- And the destination row. -/
theorem head_v3 (VK : Valuation Cert.KernelIdeal.τ Cert.KernelIdeal.sig (Elt F)) (VR : Valuation Cert.ReferenceIdeal.τ Cert.ReferenceIdeal.sig (Elt F)) (h0 : VK (Proc.devRef .tc Cert.KernelIdeal.main_arg1) = VR (Proc.devRef .tc Cert.ReferenceIdeal.main_arg1)) :
    after Cert.KernelIdeal.Gen.hostOps0 VK (Proc.devRef .tc Cert.KernelIdeal.main_v3) = after refHead VR (Proc.devRef .tc Cert.ReferenceIdeal.main_v3) := by
  simp only [refHead, Cert.KernelIdeal.Gen.hostOps0, Cert.ReferenceIdeal.ValueP.ops, List.take_succ_cons, List.take_zero, List.drop_succ_cons, List.drop_zero]
  after_results_simp
  try simp only [TRef.ofBuf, TRef.toBuf, cast_eq]
  try rw [h0]
  try rfl
/-! The float arguments pass through this stretch untouched on both sides. -/
theorem head_arg0 (VK : Valuation Cert.KernelIdeal.τ Cert.KernelIdeal.sig (Elt F)) (VR : Valuation Cert.ReferenceIdeal.τ Cert.ReferenceIdeal.sig (Elt F)) (h : VK (Proc.devRef .tc Cert.KernelIdeal.main_arg0) = VR (Proc.devRef .tc Cert.ReferenceIdeal.main_arg0)) :
    after Cert.KernelIdeal.Gen.hostOps0 VK (Proc.devRef .tc Cert.KernelIdeal.main_arg0) = after refHead VR (Proc.devRef .tc Cert.ReferenceIdeal.main_arg0) := by
  simp only [refHead, Cert.KernelIdeal.Gen.hostOps0, Cert.ReferenceIdeal.ValueP.ops, List.take_succ_cons, List.take_zero, List.drop_succ_cons, List.drop_zero]
  after_results_simp
  exact h
theorem head_arg2 (VK : Valuation Cert.KernelIdeal.τ Cert.KernelIdeal.sig (Elt F)) (VR : Valuation Cert.ReferenceIdeal.τ Cert.ReferenceIdeal.sig (Elt F)) (h : VK (Proc.devRef .tc Cert.KernelIdeal.main_arg2) = VR (Proc.devRef .tc Cert.ReferenceIdeal.main_arg2)) :
    after Cert.KernelIdeal.Gen.hostOps0 VK (Proc.devRef .tc Cert.KernelIdeal.main_arg2) = after refHead VR (Proc.devRef .tc Cert.ReferenceIdeal.main_arg2) := by
  simp only [refHead, Cert.KernelIdeal.Gen.hostOps0, Cert.ReferenceIdeal.ValueP.ops, List.take_succ_cons, List.take_zero, List.drop_succ_cons, List.drop_zero]
  after_results_simp
  exact h
theorem head_arg3 (VK : Valuation Cert.KernelIdeal.τ Cert.KernelIdeal.sig (Elt F)) (VR : Valuation Cert.ReferenceIdeal.τ Cert.ReferenceIdeal.sig (Elt F)) (h : VK (Proc.devRef .tc Cert.KernelIdeal.main_arg3) = VR (Proc.devRef .tc Cert.ReferenceIdeal.main_arg3)) :
    after Cert.KernelIdeal.Gen.hostOps0 VK (Proc.devRef .tc Cert.KernelIdeal.main_arg3) = after refHead VR (Proc.devRef .tc Cert.ReferenceIdeal.main_arg3) := by
  simp only [refHead, Cert.KernelIdeal.Gen.hostOps0, Cert.ReferenceIdeal.ValueP.ops, List.take_succ_cons, List.take_zero, List.drop_succ_cons, List.drop_zero]
  after_results_simp
  exact h
theorem head_arg4 (VK : Valuation Cert.KernelIdeal.τ Cert.KernelIdeal.sig (Elt F)) (VR : Valuation Cert.ReferenceIdeal.τ Cert.ReferenceIdeal.sig (Elt F)) (h : VK (Proc.devRef .tc Cert.KernelIdeal.main_arg4) = VR (Proc.devRef .tc Cert.ReferenceIdeal.main_arg4)) :
    after Cert.KernelIdeal.Gen.hostOps0 VK (Proc.devRef .tc Cert.KernelIdeal.main_arg4) = after refHead VR (Proc.devRef .tc Cert.ReferenceIdeal.main_arg4) := by
  simp only [refHead, Cert.KernelIdeal.Gen.hostOps0, Cert.ReferenceIdeal.ValueP.ops, List.take_succ_cons, List.take_zero, List.drop_succ_cons, List.drop_zero]
  after_results_simp
  exact h
theorem head_arg5 (VK : Valuation Cert.KernelIdeal.τ Cert.KernelIdeal.sig (Elt F)) (VR : Valuation Cert.ReferenceIdeal.τ Cert.ReferenceIdeal.sig (Elt F)) (h : VK (Proc.devRef .tc Cert.KernelIdeal.main_arg5) = VR (Proc.devRef .tc Cert.ReferenceIdeal.main_arg5)) :
    after Cert.KernelIdeal.Gen.hostOps0 VK (Proc.devRef .tc Cert.KernelIdeal.main_arg5) = after refHead VR (Proc.devRef .tc Cert.ReferenceIdeal.main_arg5) := by
  simp only [refHead, Cert.KernelIdeal.Gen.hostOps0, Cert.ReferenceIdeal.ValueP.ops, List.take_succ_cons, List.take_zero, List.drop_succ_cons, List.drop_zero]
  after_results_simp
  exact h

/-! ## The first product, in the reference -/

theorem dot1_v4 (VR : Valuation Cert.ReferenceIdeal.τ Cert.ReferenceIdeal.sig (Elt F)) :
    after refDot1 VR (Proc.devRef .tc Cert.ReferenceIdeal.main_v4)
      = Host.dotGeneral Cert.ReferenceIdeal.dot_S10000x512_S512x256_S10000x256_1_0_0_1_n_n none (VR (Proc.devRef .tc Cert.ReferenceIdeal.main_arg0)) (VR (Proc.devRef .tc Cert.ReferenceIdeal.main_arg2)) := by
  simp only [refDot1, Cert.ReferenceIdeal.ValueP.ops, List.take_succ_cons, List.take_zero, List.drop_succ_cons, List.drop_zero]
  after_results_simp
theorem dot1_v1 (VR : Valuation Cert.ReferenceIdeal.τ Cert.ReferenceIdeal.sig (Elt F)) : after refDot1 VR (Proc.devRef .tc Cert.ReferenceIdeal.main_v1) = VR (Proc.devRef .tc Cert.ReferenceIdeal.main_v1) := by
  simp only [refDot1, Cert.ReferenceIdeal.ValueP.ops, List.take_succ_cons, List.take_zero, List.drop_succ_cons, List.drop_zero]
  after_results_simp
theorem dot1_v3 (VR : Valuation Cert.ReferenceIdeal.τ Cert.ReferenceIdeal.sig (Elt F)) : after refDot1 VR (Proc.devRef .tc Cert.ReferenceIdeal.main_v3) = VR (Proc.devRef .tc Cert.ReferenceIdeal.main_v3) := by
  simp only [refDot1, Cert.ReferenceIdeal.ValueP.ops, List.take_succ_cons, List.take_zero, List.drop_succ_cons, List.drop_zero]
  after_results_simp
theorem dot1_arg3 (VR : Valuation Cert.ReferenceIdeal.τ Cert.ReferenceIdeal.sig (Elt F)) : after refDot1 VR (Proc.devRef .tc Cert.ReferenceIdeal.main_arg3) = VR (Proc.devRef .tc Cert.ReferenceIdeal.main_arg3) := by
  simp only [refDot1, Cert.ReferenceIdeal.ValueP.ops, List.take_succ_cons, List.take_zero, List.drop_succ_cons, List.drop_zero]
  after_results_simp
theorem dot1_arg4 (VR : Valuation Cert.ReferenceIdeal.τ Cert.ReferenceIdeal.sig (Elt F)) : after refDot1 VR (Proc.devRef .tc Cert.ReferenceIdeal.main_arg4) = VR (Proc.devRef .tc Cert.ReferenceIdeal.main_arg4) := by
  simp only [refDot1, Cert.ReferenceIdeal.ValueP.ops, List.take_succ_cons, List.take_zero, List.drop_succ_cons, List.drop_zero]
  after_results_simp
theorem dot1_arg5 (VR : Valuation Cert.ReferenceIdeal.τ Cert.ReferenceIdeal.sig (Elt F)) : after refDot1 VR (Proc.devRef .tc Cert.ReferenceIdeal.main_arg5) = VR (Proc.devRef .tc Cert.ReferenceIdeal.main_arg5) := by
  simp only [refDot1, Cert.ReferenceIdeal.ValueP.ops, List.take_succ_cons, List.take_zero, List.drop_succ_cons, List.drop_zero]
  after_results_simp

/-! ## The first layer's graph side

From memories that agree on the two edge rows, both programs append the self-loops to each row, count each node's
incoming edges by a scatter-add of ones, and take the reciprocal square root of the positive counts. -/

/-- The source row with the self-loops appended. -/
theorem norm1_v6 (VK : Valuation Cert.KernelIdeal.τ Cert.KernelIdeal.sig (Elt F)) (VR : Valuation Cert.ReferenceIdeal.τ Cert.ReferenceIdeal.sig (Elt F)) (h0 : VK (Proc.devRef .tc Cert.KernelIdeal.main_v1) = VR (Proc.devRef .tc Cert.ReferenceIdeal.main_v1)) :
    after Cert.KernelIdeal.Gen.hostOps1_1 (after Cert.KernelIdeal.Gen.hostOps1 VK) (Proc.devRef .tc Cert.KernelIdeal.main_v6) = after refNorm1 VR (Proc.devRef .tc Cert.ReferenceIdeal.main_v6) := by
  simp only [refNorm1, Cert.KernelIdeal.Gen.hostOps1, Cert.KernelIdeal.Gen.hostOps1_1, Cert.ReferenceIdeal.ValueP.ops, List.take_succ_cons, List.take_zero, List.drop_succ_cons, List.drop_zero]
  after_results_simp
  results_by_rw
  try simp only [TRef.ofBuf, TRef.toBuf, cast_eq]
  try rw [h0]
  try rfl
/-- The destination row with the self-loops appended. -/
theorem norm1_v7 (VK : Valuation Cert.KernelIdeal.τ Cert.KernelIdeal.sig (Elt F)) (VR : Valuation Cert.ReferenceIdeal.τ Cert.ReferenceIdeal.sig (Elt F)) (h0 : VK (Proc.devRef .tc Cert.KernelIdeal.main_v3) = VR (Proc.devRef .tc Cert.ReferenceIdeal.main_v3)) :
    after Cert.KernelIdeal.Gen.hostOps1_1 (after Cert.KernelIdeal.Gen.hostOps1 VK) (Proc.devRef .tc Cert.KernelIdeal.main_v7) = after refNorm1 VR (Proc.devRef .tc Cert.ReferenceIdeal.main_v7) := by
  simp only [refNorm1, Cert.KernelIdeal.Gen.hostOps1, Cert.KernelIdeal.Gen.hostOps1_1, Cert.ReferenceIdeal.ValueP.ops, List.take_succ_cons, List.take_zero, List.drop_succ_cons, List.drop_zero]
  after_results_simp
  results_by_rw
  try simp only [TRef.ofBuf, TRef.toBuf, cast_eq]
  try rw [h0]
  try rfl
/-- The nodes' normalisation factors: the reciprocal square root of the in-degree where it is positive, zero elsewhere. -/
theorem norm1_v15 (VK : Valuation Cert.KernelIdeal.τ Cert.KernelIdeal.sig (Elt F)) (VR : Valuation Cert.ReferenceIdeal.τ Cert.ReferenceIdeal.sig (Elt F)) (h0 : VK (Proc.devRef .tc Cert.KernelIdeal.main_v3) = VR (Proc.devRef .tc Cert.ReferenceIdeal.main_v3)) :
    after Cert.KernelIdeal.Gen.hostOps1_1 (after Cert.KernelIdeal.Gen.hostOps1 VK) (Proc.devRef .tc Cert.KernelIdeal.main_v15) = after refNorm1 VR (Proc.devRef .tc Cert.ReferenceIdeal.main_v15) := by
  simp only [refNorm1, Cert.KernelIdeal.Gen.hostOps1, Cert.KernelIdeal.Gen.hostOps1_1, Cert.ReferenceIdeal.ValueP.ops, List.take_succ_cons, List.take_zero, List.drop_succ_cons, List.drop_zero]
  after_results_simp
  results_by_rw
  try simp only [TRef.ofBuf, TRef.toBuf, cast_eq]
  try rw [h0]
  try rfl
/-! The product, the edge rows and the float arguments still to be read pass through untouched. -/
theorem norm1_v1 (VK : Valuation Cert.KernelIdeal.τ Cert.KernelIdeal.sig (Elt F)) (VR : Valuation Cert.ReferenceIdeal.τ Cert.ReferenceIdeal.sig (Elt F)) (h : VK (Proc.devRef .tc Cert.KernelIdeal.main_v1) = VR (Proc.devRef .tc Cert.ReferenceIdeal.main_v1)) :
    after Cert.KernelIdeal.Gen.hostOps1_1 (after Cert.KernelIdeal.Gen.hostOps1 VK) (Proc.devRef .tc Cert.KernelIdeal.main_v1) = after refNorm1 VR (Proc.devRef .tc Cert.ReferenceIdeal.main_v1) := by
  simp only [refNorm1, Cert.KernelIdeal.Gen.hostOps1, Cert.KernelIdeal.Gen.hostOps1_1, Cert.ReferenceIdeal.ValueP.ops, List.take_succ_cons, List.take_zero, List.drop_succ_cons, List.drop_zero]
  after_results_simp
  exact h
theorem norm1_v3 (VK : Valuation Cert.KernelIdeal.τ Cert.KernelIdeal.sig (Elt F)) (VR : Valuation Cert.ReferenceIdeal.τ Cert.ReferenceIdeal.sig (Elt F)) (h : VK (Proc.devRef .tc Cert.KernelIdeal.main_v3) = VR (Proc.devRef .tc Cert.ReferenceIdeal.main_v3)) :
    after Cert.KernelIdeal.Gen.hostOps1_1 (after Cert.KernelIdeal.Gen.hostOps1 VK) (Proc.devRef .tc Cert.KernelIdeal.main_v3) = after refNorm1 VR (Proc.devRef .tc Cert.ReferenceIdeal.main_v3) := by
  simp only [refNorm1, Cert.KernelIdeal.Gen.hostOps1, Cert.KernelIdeal.Gen.hostOps1_1, Cert.ReferenceIdeal.ValueP.ops, List.take_succ_cons, List.take_zero, List.drop_succ_cons, List.drop_zero]
  after_results_simp
  exact h
theorem norm1_v4 (VK : Valuation Cert.KernelIdeal.τ Cert.KernelIdeal.sig (Elt F)) (VR : Valuation Cert.ReferenceIdeal.τ Cert.ReferenceIdeal.sig (Elt F)) (h : VK (Proc.devRef .tc Cert.KernelIdeal.main_v4) = VR (Proc.devRef .tc Cert.ReferenceIdeal.main_v4)) :
    after Cert.KernelIdeal.Gen.hostOps1_1 (after Cert.KernelIdeal.Gen.hostOps1 VK) (Proc.devRef .tc Cert.KernelIdeal.main_v4) = after refNorm1 VR (Proc.devRef .tc Cert.ReferenceIdeal.main_v4) := by
  simp only [refNorm1, Cert.KernelIdeal.Gen.hostOps1, Cert.KernelIdeal.Gen.hostOps1_1, Cert.ReferenceIdeal.ValueP.ops, List.take_succ_cons, List.take_zero, List.drop_succ_cons, List.drop_zero]
  after_results_simp
  exact h
theorem norm1_arg3 (VK : Valuation Cert.KernelIdeal.τ Cert.KernelIdeal.sig (Elt F)) (VR : Valuation Cert.ReferenceIdeal.τ Cert.ReferenceIdeal.sig (Elt F)) (h : VK (Proc.devRef .tc Cert.KernelIdeal.main_arg3) = VR (Proc.devRef .tc Cert.ReferenceIdeal.main_arg3)) :
    after Cert.KernelIdeal.Gen.hostOps1_1 (after Cert.KernelIdeal.Gen.hostOps1 VK) (Proc.devRef .tc Cert.KernelIdeal.main_arg3) = after refNorm1 VR (Proc.devRef .tc Cert.ReferenceIdeal.main_arg3) := by
  simp only [refNorm1, Cert.KernelIdeal.Gen.hostOps1, Cert.KernelIdeal.Gen.hostOps1_1, Cert.ReferenceIdeal.ValueP.ops, List.take_succ_cons, List.take_zero, List.drop_succ_cons, List.drop_zero]
  after_results_simp
  exact h
theorem norm1_arg4 (VK : Valuation Cert.KernelIdeal.τ Cert.KernelIdeal.sig (Elt F)) (VR : Valuation Cert.ReferenceIdeal.τ Cert.ReferenceIdeal.sig (Elt F)) (h : VK (Proc.devRef .tc Cert.KernelIdeal.main_arg4) = VR (Proc.devRef .tc Cert.ReferenceIdeal.main_arg4)) :
    after Cert.KernelIdeal.Gen.hostOps1_1 (after Cert.KernelIdeal.Gen.hostOps1 VK) (Proc.devRef .tc Cert.KernelIdeal.main_arg4) = after refNorm1 VR (Proc.devRef .tc Cert.ReferenceIdeal.main_arg4) := by
  simp only [refNorm1, Cert.KernelIdeal.Gen.hostOps1, Cert.KernelIdeal.Gen.hostOps1_1, Cert.ReferenceIdeal.ValueP.ops, List.take_succ_cons, List.take_zero, List.drop_succ_cons, List.drop_zero]
  after_results_simp
  exact h
theorem norm1_arg5 (VK : Valuation Cert.KernelIdeal.τ Cert.KernelIdeal.sig (Elt F)) (VR : Valuation Cert.ReferenceIdeal.τ Cert.ReferenceIdeal.sig (Elt F)) (h : VK (Proc.devRef .tc Cert.KernelIdeal.main_arg5) = VR (Proc.devRef .tc Cert.ReferenceIdeal.main_arg5)) :
    after Cert.KernelIdeal.Gen.hostOps1_1 (after Cert.KernelIdeal.Gen.hostOps1 VK) (Proc.devRef .tc Cert.KernelIdeal.main_arg5) = after refNorm1 VR (Proc.devRef .tc Cert.ReferenceIdeal.main_arg5) := by
  simp only [refNorm1, Cert.KernelIdeal.Gen.hostOps1, Cert.KernelIdeal.Gen.hostOps1_1, Cert.ReferenceIdeal.ValueP.ops, List.take_succ_cons, List.take_zero, List.drop_succ_cons, List.drop_zero]
  after_results_simp
  exact h

/-! ## The first layer's aggregation, bias and ReLU -/

set_option maxHeartbeats 4000000 in
/-- From memories that agree on the product, the two extended edge rows, the normalisation factors and the bias, both
    programs end the stretch with the same activations: the edge weights by two gathers of the factors, the weighted source
    rows of the product scatter-added at the destinations, the bias added, the maximum with zero. -/
theorem agg1_v47 (VK : Valuation Cert.KernelIdeal.τ Cert.KernelIdeal.sig (Elt F)) (VR : Valuation Cert.ReferenceIdeal.τ Cert.ReferenceIdeal.sig (Elt F)) (h0 : VK (Proc.devRef .tc Cert.KernelIdeal.main_v4) = VR (Proc.devRef .tc Cert.ReferenceIdeal.main_v4)) (h1 : VK (Proc.devRef .tc Cert.KernelIdeal.main_v6) = VR (Proc.devRef .tc Cert.ReferenceIdeal.main_v6)) (h2 : VK (Proc.devRef .tc Cert.KernelIdeal.main_v7) = VR (Proc.devRef .tc Cert.ReferenceIdeal.main_v7)) (h3 : VK (Proc.devRef .tc Cert.KernelIdeal.main_v15) = VR (Proc.devRef .tc Cert.ReferenceIdeal.main_v15)) (h4 : VK (Proc.devRef .tc Cert.KernelIdeal.main_arg3) = VR (Proc.devRef .tc Cert.ReferenceIdeal.main_arg3)) :
    after Cert.KernelIdeal.Gen.hostOps1_3 (after Cert.KernelIdeal.Gen.hostOps1_2 VK) (Proc.devRef .tc Cert.KernelIdeal.main_v47) = after refAgg1 VR (Proc.devRef .tc Cert.ReferenceIdeal.main_v47) := by
  simp only [refAgg1, Cert.KernelIdeal.Gen.hostOps1_2, Cert.KernelIdeal.Gen.hostOps1_3, Cert.ReferenceIdeal.ValueP.ops, List.take_succ_cons, List.take_zero, List.drop_succ_cons, List.drop_zero]
  after_results_simp
  try simp only [TRef.ofBuf, TRef.toBuf, cast_eq]
  try rw [h0]
  try rw [h1]
  try rw [h2]
  try rw [h3]
  try rw [h4]
  try rfl
/-! The edge rows and the second layer's arguments pass through untouched. -/
theorem agg1_v1 (VK : Valuation Cert.KernelIdeal.τ Cert.KernelIdeal.sig (Elt F)) (VR : Valuation Cert.ReferenceIdeal.τ Cert.ReferenceIdeal.sig (Elt F)) (h : VK (Proc.devRef .tc Cert.KernelIdeal.main_v1) = VR (Proc.devRef .tc Cert.ReferenceIdeal.main_v1)) :
    after Cert.KernelIdeal.Gen.hostOps1_3 (after Cert.KernelIdeal.Gen.hostOps1_2 VK) (Proc.devRef .tc Cert.KernelIdeal.main_v1) = after refAgg1 VR (Proc.devRef .tc Cert.ReferenceIdeal.main_v1) := by
  simp only [refAgg1, Cert.KernelIdeal.Gen.hostOps1_2, Cert.KernelIdeal.Gen.hostOps1_3, Cert.ReferenceIdeal.ValueP.ops, List.take_succ_cons, List.take_zero, List.drop_succ_cons, List.drop_zero]
  after_results_simp
  exact h
theorem agg1_v3 (VK : Valuation Cert.KernelIdeal.τ Cert.KernelIdeal.sig (Elt F)) (VR : Valuation Cert.ReferenceIdeal.τ Cert.ReferenceIdeal.sig (Elt F)) (h : VK (Proc.devRef .tc Cert.KernelIdeal.main_v3) = VR (Proc.devRef .tc Cert.ReferenceIdeal.main_v3)) :
    after Cert.KernelIdeal.Gen.hostOps1_3 (after Cert.KernelIdeal.Gen.hostOps1_2 VK) (Proc.devRef .tc Cert.KernelIdeal.main_v3) = after refAgg1 VR (Proc.devRef .tc Cert.ReferenceIdeal.main_v3) := by
  simp only [refAgg1, Cert.KernelIdeal.Gen.hostOps1_2, Cert.KernelIdeal.Gen.hostOps1_3, Cert.ReferenceIdeal.ValueP.ops, List.take_succ_cons, List.take_zero, List.drop_succ_cons, List.drop_zero]
  after_results_simp
  exact h
theorem agg1_arg4 (VK : Valuation Cert.KernelIdeal.τ Cert.KernelIdeal.sig (Elt F)) (VR : Valuation Cert.ReferenceIdeal.τ Cert.ReferenceIdeal.sig (Elt F)) (h : VK (Proc.devRef .tc Cert.KernelIdeal.main_arg4) = VR (Proc.devRef .tc Cert.ReferenceIdeal.main_arg4)) :
    after Cert.KernelIdeal.Gen.hostOps1_3 (after Cert.KernelIdeal.Gen.hostOps1_2 VK) (Proc.devRef .tc Cert.KernelIdeal.main_arg4) = after refAgg1 VR (Proc.devRef .tc Cert.ReferenceIdeal.main_arg4) := by
  simp only [refAgg1, Cert.KernelIdeal.Gen.hostOps1_2, Cert.KernelIdeal.Gen.hostOps1_3, Cert.ReferenceIdeal.ValueP.ops, List.take_succ_cons, List.take_zero, List.drop_succ_cons, List.drop_zero]
  after_results_simp
  exact h
theorem agg1_arg5 (VK : Valuation Cert.KernelIdeal.τ Cert.KernelIdeal.sig (Elt F)) (VR : Valuation Cert.ReferenceIdeal.τ Cert.ReferenceIdeal.sig (Elt F)) (h : VK (Proc.devRef .tc Cert.KernelIdeal.main_arg5) = VR (Proc.devRef .tc Cert.ReferenceIdeal.main_arg5)) :
    after Cert.KernelIdeal.Gen.hostOps1_3 (after Cert.KernelIdeal.Gen.hostOps1_2 VK) (Proc.devRef .tc Cert.KernelIdeal.main_arg5) = after refAgg1 VR (Proc.devRef .tc Cert.ReferenceIdeal.main_arg5) := by
  simp only [refAgg1, Cert.KernelIdeal.Gen.hostOps1_2, Cert.KernelIdeal.Gen.hostOps1_3, Cert.ReferenceIdeal.ValueP.ops, List.take_succ_cons, List.take_zero, List.drop_succ_cons, List.drop_zero]
  after_results_simp
  exact h

/-! ## The second product, in the reference -/

theorem dot2_v48 (VR : Valuation Cert.ReferenceIdeal.τ Cert.ReferenceIdeal.sig (Elt F)) :
    after refDot2 VR (Proc.devRef .tc Cert.ReferenceIdeal.main_v48)
      = Host.dotGeneral Cert.ReferenceIdeal.dot_S10000x256_S256x128_S10000x128_1_0_0_1_n_n none (VR (Proc.devRef .tc Cert.ReferenceIdeal.main_v47)) (VR (Proc.devRef .tc Cert.ReferenceIdeal.main_arg4)) := by
  simp only [refDot2, Cert.ReferenceIdeal.ValueP.ops, List.take_succ_cons, List.take_zero, List.drop_succ_cons, List.drop_zero]
  after_results_simp
theorem dot2_v1 (VR : Valuation Cert.ReferenceIdeal.τ Cert.ReferenceIdeal.sig (Elt F)) : after refDot2 VR (Proc.devRef .tc Cert.ReferenceIdeal.main_v1) = VR (Proc.devRef .tc Cert.ReferenceIdeal.main_v1) := by
  simp only [refDot2, Cert.ReferenceIdeal.ValueP.ops, List.take_succ_cons, List.take_zero, List.drop_succ_cons, List.drop_zero]
  after_results_simp
theorem dot2_v3 (VR : Valuation Cert.ReferenceIdeal.τ Cert.ReferenceIdeal.sig (Elt F)) : after refDot2 VR (Proc.devRef .tc Cert.ReferenceIdeal.main_v3) = VR (Proc.devRef .tc Cert.ReferenceIdeal.main_v3) := by
  simp only [refDot2, Cert.ReferenceIdeal.ValueP.ops, List.take_succ_cons, List.take_zero, List.drop_succ_cons, List.drop_zero]
  after_results_simp
theorem dot2_arg5 (VR : Valuation Cert.ReferenceIdeal.τ Cert.ReferenceIdeal.sig (Elt F)) : after refDot2 VR (Proc.devRef .tc Cert.ReferenceIdeal.main_arg5) = VR (Proc.devRef .tc Cert.ReferenceIdeal.main_arg5) := by
  simp only [refDot2, Cert.ReferenceIdeal.ValueP.ops, List.take_succ_cons, List.take_zero, List.drop_succ_cons, List.drop_zero]
  after_results_simp

/-! ## The second layer's graph side: the same seventeen operations again, on fresh buffers -/

theorem norm2_v50 (VK : Valuation Cert.KernelIdeal.τ Cert.KernelIdeal.sig (Elt F)) (VR : Valuation Cert.ReferenceIdeal.τ Cert.ReferenceIdeal.sig (Elt F)) (h0 : VK (Proc.devRef .tc Cert.KernelIdeal.main_v1) = VR (Proc.devRef .tc Cert.ReferenceIdeal.main_v1)) :
    after Cert.KernelIdeal.Gen.hostOps2_1 (after Cert.KernelIdeal.Gen.hostOps2 VK) (Proc.devRef .tc Cert.KernelIdeal.main_v50) = after refNorm2 VR (Proc.devRef .tc Cert.ReferenceIdeal.main_v50) := by
  simp only [refNorm2, Cert.KernelIdeal.Gen.hostOps2, Cert.KernelIdeal.Gen.hostOps2_1, Cert.ReferenceIdeal.ValueP.ops, List.take_succ_cons, List.take_zero, List.drop_succ_cons, List.drop_zero]
  after_results_simp
  results_by_rw
  try simp only [TRef.ofBuf, TRef.toBuf, cast_eq]
  try rw [h0]
  try rfl
theorem norm2_v51 (VK : Valuation Cert.KernelIdeal.τ Cert.KernelIdeal.sig (Elt F)) (VR : Valuation Cert.ReferenceIdeal.τ Cert.ReferenceIdeal.sig (Elt F)) (h0 : VK (Proc.devRef .tc Cert.KernelIdeal.main_v3) = VR (Proc.devRef .tc Cert.ReferenceIdeal.main_v3)) :
    after Cert.KernelIdeal.Gen.hostOps2_1 (after Cert.KernelIdeal.Gen.hostOps2 VK) (Proc.devRef .tc Cert.KernelIdeal.main_v51) = after refNorm2 VR (Proc.devRef .tc Cert.ReferenceIdeal.main_v51) := by
  simp only [refNorm2, Cert.KernelIdeal.Gen.hostOps2, Cert.KernelIdeal.Gen.hostOps2_1, Cert.ReferenceIdeal.ValueP.ops, List.take_succ_cons, List.take_zero, List.drop_succ_cons, List.drop_zero]
  after_results_simp
  results_by_rw
  try simp only [TRef.ofBuf, TRef.toBuf, cast_eq]
  try rw [h0]
  try rfl
theorem norm2_v59 (VK : Valuation Cert.KernelIdeal.τ Cert.KernelIdeal.sig (Elt F)) (VR : Valuation Cert.ReferenceIdeal.τ Cert.ReferenceIdeal.sig (Elt F)) (h0 : VK (Proc.devRef .tc Cert.KernelIdeal.main_v3) = VR (Proc.devRef .tc Cert.ReferenceIdeal.main_v3)) :
    after Cert.KernelIdeal.Gen.hostOps2_1 (after Cert.KernelIdeal.Gen.hostOps2 VK) (Proc.devRef .tc Cert.KernelIdeal.main_v59) = after refNorm2 VR (Proc.devRef .tc Cert.ReferenceIdeal.main_v59) := by
  simp only [refNorm2, Cert.KernelIdeal.Gen.hostOps2, Cert.KernelIdeal.Gen.hostOps2_1, Cert.ReferenceIdeal.ValueP.ops, List.take_succ_cons, List.take_zero, List.drop_succ_cons, List.drop_zero]
  after_results_simp
  results_by_rw
  try simp only [TRef.ofBuf, TRef.toBuf, cast_eq]
  try rw [h0]
  try rfl
theorem norm2_v48 (VK : Valuation Cert.KernelIdeal.τ Cert.KernelIdeal.sig (Elt F)) (VR : Valuation Cert.ReferenceIdeal.τ Cert.ReferenceIdeal.sig (Elt F)) (h : VK (Proc.devRef .tc Cert.KernelIdeal.main_v48) = VR (Proc.devRef .tc Cert.ReferenceIdeal.main_v48)) :
    after Cert.KernelIdeal.Gen.hostOps2_1 (after Cert.KernelIdeal.Gen.hostOps2 VK) (Proc.devRef .tc Cert.KernelIdeal.main_v48) = after refNorm2 VR (Proc.devRef .tc Cert.ReferenceIdeal.main_v48) := by
  simp only [refNorm2, Cert.KernelIdeal.Gen.hostOps2, Cert.KernelIdeal.Gen.hostOps2_1, Cert.ReferenceIdeal.ValueP.ops, List.take_succ_cons, List.take_zero, List.drop_succ_cons, List.drop_zero]
  after_results_simp
  exact h
theorem norm2_arg5 (VK : Valuation Cert.KernelIdeal.τ Cert.KernelIdeal.sig (Elt F)) (VR : Valuation Cert.ReferenceIdeal.τ Cert.ReferenceIdeal.sig (Elt F)) (h : VK (Proc.devRef .tc Cert.KernelIdeal.main_arg5) = VR (Proc.devRef .tc Cert.ReferenceIdeal.main_arg5)) :
    after Cert.KernelIdeal.Gen.hostOps2_1 (after Cert.KernelIdeal.Gen.hostOps2 VK) (Proc.devRef .tc Cert.KernelIdeal.main_arg5) = after refNorm2 VR (Proc.devRef .tc Cert.ReferenceIdeal.main_arg5) := by
  simp only [refNorm2, Cert.KernelIdeal.Gen.hostOps2, Cert.KernelIdeal.Gen.hostOps2_1, Cert.ReferenceIdeal.ValueP.ops, List.take_succ_cons, List.take_zero, List.drop_succ_cons, List.drop_zero]
  after_results_simp
  exact h

/-! ## The second layer's aggregation and bias -/

set_option maxHeartbeats 4000000 in
/-- From memories that agree on the second product, the two extended edge rows, the normalisation factors and the second
    bias, both programs return the same array. -/
theorem agg2_v90 (VK : Valuation Cert.KernelIdeal.τ Cert.KernelIdeal.sig (Elt F)) (VR : Valuation Cert.ReferenceIdeal.τ Cert.ReferenceIdeal.sig (Elt F)) (h0 : VK (Proc.devRef .tc Cert.KernelIdeal.main_v48) = VR (Proc.devRef .tc Cert.ReferenceIdeal.main_v48)) (h1 : VK (Proc.devRef .tc Cert.KernelIdeal.main_v50) = VR (Proc.devRef .tc Cert.ReferenceIdeal.main_v50)) (h2 : VK (Proc.devRef .tc Cert.KernelIdeal.main_v51) = VR (Proc.devRef .tc Cert.ReferenceIdeal.main_v51)) (h3 : VK (Proc.devRef .tc Cert.KernelIdeal.main_v59) = VR (Proc.devRef .tc Cert.ReferenceIdeal.main_v59)) (h4 : VK (Proc.devRef .tc Cert.KernelIdeal.main_arg5) = VR (Proc.devRef .tc Cert.ReferenceIdeal.main_arg5)) :
    after Cert.KernelIdeal.Gen.hostOps2_2 VK (Proc.devRef .tc Cert.KernelIdeal.main_v90) = after refAgg2 VR (Proc.devRef .tc Cert.ReferenceIdeal.main_v90) := by
  simp only [refAgg2, Cert.KernelIdeal.Gen.hostOps2_2, Cert.ReferenceIdeal.ValueP.ops, List.take_succ_cons, List.take_zero, List.drop_succ_cons, List.drop_zero]
  after_results_simp
  try simp only [TRef.ofBuf, TRef.toBuf, cast_eq]
  try rw [h0]
  try rw [h1]
  try rw [h2]
  try rw [h3]
  try rw [h4]
  try rfl

end Cert.Proof.HostSteps

end
-- ==== Proof.Bridge.lean ====
/- The kernel program's returned array is the reference's, on the extended reals.

   Both programs are the same two-layer graph convolution: layer(h) = Â · (h · W) + b with Â the normalised adjacency
   built from the edge list, a ReLU between the layers. They differ only in how h · W is computed: the kernel program
   launches a pallas_call that multiplies 2000-row blocks on the matrix unit after rounding both operands to bf16, the
   reference applies one dot_general. On the extended reals the rounding is the identity and both are the plain sum
   Σ_k h[r, k] · W[k, q], entry by entry (Region0, Region1 against RefProducts); no law of arithmetic is needed beyond
   that, so the inputs' finiteness is never used. Everything around the two products is the same host operations on both
   sides (HostSteps). The proof walks the two programs side by side through their stretches, carrying that the
   buffers still to be read agree. -/
import proofs.«176515_j27788438405708_1_alg».proof.Proof.Gen.KernelIdeal.Frame
import proofs.«176515_j27788438405708_1_alg».proof.Proof.Region0
import proofs.«176515_j27788438405708_1_alg».proof.Proof.Region1
import proofs.«176515_j27788438405708_1_alg».proof.Proof.RefProducts
import proofs.«176515_j27788438405708_1_alg».proof.Proof.HostSteps

set_option maxRecDepth 16384

noncomputable section

namespace Cert.Proof.Bridge

open Idealize.ShloMosaic Idealize.ShloMosaic.TcCoe Idealize.SL.Sem Idealize.ShloMosaic.StableHlo
open Cert.Proof.HostSteps

/-- The first pallas_call's whole product is the reference's first dot_general: the same sum entry by entry. -/
theorem product0_eq (X : Vec Ideal Cert.KernelIdeal.S10000x512 .f32) (W : Vec Ideal Cert.KernelIdeal.S512x256 .f32) :
    Cert.KernelIdeal.Region0.product X W
      = Host.dotGeneral (F := Ideal) (φ₁ := .f32) (φ₂ := .f32) Cert.ReferenceIdeal.dot_S10000x512_S512x256_S10000x256_1_0_0_1_n_n none X W := by
  funext i
  rw [Cert.ReferenceIdeal.Dot1.dot_apply]
  rfl

/-- The second pallas_call's whole product is the reference's second dot_general. -/
theorem product1_eq (X : Vec Ideal Cert.KernelIdeal.S10000x256 .f32) (W : Vec Ideal Cert.KernelIdeal.S256x128 .f32) :
    Cert.KernelIdeal.Region1.product X W
      = Host.dotGeneral (F := Ideal) (φ₁ := .f32) (φ₂ := .f32) Cert.ReferenceIdeal.dot_S10000x256_S256x128_S10000x128_1_0_0_1_n_n none X W := by
  funext i
  rw [Cert.ReferenceIdeal.Dot2.dot_apply]
  rfl

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The reference's memory after each of its stretches, from its launch contents on core `c`. -/
abbrev RA (c : Dev Cert.KernelIdeal.nD) : Valuation Cert.ReferenceIdeal.τ Cert.ReferenceIdeal.sig (Elt Ideal) := after refHead (launchContents m' c)
abbrev R1 (c : Dev Cert.KernelIdeal.nD) : Valuation Cert.ReferenceIdeal.τ Cert.ReferenceIdeal.sig (Elt Ideal) := after refDot1 (RA m' c)
abbrev RN1 (c : Dev Cert.KernelIdeal.nD) : Valuation Cert.ReferenceIdeal.τ Cert.ReferenceIdeal.sig (Elt Ideal) := after refNorm1 (R1 m' c)
abbrev RB (c : Dev Cert.KernelIdeal.nD) : Valuation Cert.ReferenceIdeal.τ Cert.ReferenceIdeal.sig (Elt Ideal) := after refAgg1 (RN1 m' c)
abbrev R2 (c : Dev Cert.KernelIdeal.nD) : Valuation Cert.ReferenceIdeal.τ Cert.ReferenceIdeal.sig (Elt Ideal) := after refDot2 (RB m' c)
abbrev RN2 (c : Dev Cert.KernelIdeal.nD) : Valuation Cert.ReferenceIdeal.τ Cert.ReferenceIdeal.sig (Elt Ideal) := after refNorm2 (R2 m' c)

/-- THE RESULT: from memories that agree on the six arguments, the array the kernel program returns (the last
    boundary's contents at `main_v90`) is the array the reference's 119 operations leave at its `main_v90`. -/
theorem result_eq (c : Dev Cert.KernelIdeal.nD)
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.KernelIdeal.Gen.W10 m ρ c (Proc.devRef .tc Cert.KernelIdeal.main_v90) = after Cert.ReferenceIdeal.ValueP.ops (launchContents m' c) (Proc.devRef .tc Cert.ReferenceIdeal.main_v90) := by
  -- at launch the two memories agree on the arguments
  have z0 : Cert.KernelIdeal.Gen.W0 m ρ c (Proc.devRef .tc Cert.KernelIdeal.main_arg0) = launchContents m' c (Proc.devRef .tc Cert.ReferenceIdeal.main_arg0) := g0.symm
  have z1 : Cert.KernelIdeal.Gen.W0 m ρ c (Proc.devRef .tc Cert.KernelIdeal.main_arg1) = launchContents m' c (Proc.devRef .tc Cert.ReferenceIdeal.main_arg1) := g1.symm
  have z2 : Cert.KernelIdeal.Gen.W0 m ρ c (Proc.devRef .tc Cert.KernelIdeal.main_arg2) = launchContents m' c (Proc.devRef .tc Cert.ReferenceIdeal.main_arg2) := g2.symm
  have z3 : Cert.KernelIdeal.Gen.W0 m ρ c (Proc.devRef .tc Cert.KernelIdeal.main_arg3) = launchContents m' c (Proc.devRef .tc Cert.ReferenceIdeal.main_arg3) := g3.symm
  have z4 : Cert.KernelIdeal.Gen.W0 m ρ c (Proc.devRef .tc Cert.KernelIdeal.main_arg4) = launchContents m' c (Proc.devRef .tc Cert.ReferenceIdeal.main_arg4) := g4.symm
  have z5 : Cert.KernelIdeal.Gen.W0 m ρ c (Proc.devRef .tc Cert.KernelIdeal.main_arg5) = launchContents m' c (Proc.devRef .tc Cert.ReferenceIdeal.main_arg5) := g5.symm
  -- after the edge rows are cut out
  have a_v1 : Cert.KernelIdeal.Gen.W1 m ρ c (Proc.devRef .tc Cert.KernelIdeal.main_v1) = RA m' c (Proc.devRef .tc Cert.ReferenceIdeal.main_v1) := head_v1 _ _ z1
  have a_v3 : Cert.KernelIdeal.Gen.W1 m ρ c (Proc.devRef .tc Cert.KernelIdeal.main_v3) = RA m' c (Proc.devRef .tc Cert.ReferenceIdeal.main_v3) := head_v3 _ _ z1
  have a_0 : Cert.KernelIdeal.Gen.W1 m ρ c (Proc.devRef .tc Cert.KernelIdeal.main_arg0) = RA m' c (Proc.devRef .tc Cert.ReferenceIdeal.main_arg0) := head_arg0 _ _ z0
  have a_2 : Cert.KernelIdeal.Gen.W1 m ρ c (Proc.devRef .tc Cert.KernelIdeal.main_arg2) = RA m' c (Proc.devRef .tc Cert.ReferenceIdeal.main_arg2) := head_arg2 _ _ z2
  have a_3 : Cert.KernelIdeal.Gen.W1 m ρ c (Proc.devRef .tc Cert.KernelIdeal.main_arg3) = RA m' c (Proc.devRef .tc Cert.ReferenceIdeal.main_arg3) := head_arg3 _ _ z3
  have a_4 : Cert.KernelIdeal.Gen.W1 m ρ c (Proc.devRef .tc Cert.KernelIdeal.main_arg4) = RA m' c (Proc.devRef .tc Cert.ReferenceIdeal.main_arg4) := head_arg4 _ _ z4
  have a_5 : Cert.KernelIdeal.Gen.W1 m ρ c (Proc.devRef .tc Cert.KernelIdeal.main_arg5) = RA m' c (Proc.devRef .tc Cert.ReferenceIdeal.main_arg5) := head_arg5 _ _ z5
  -- after the first product: the pallas_call's output array against the dot_general's
  have p_v4 : Cert.KernelIdeal.Gen.W2 m ρ c (Proc.devRef .tc Cert.KernelIdeal.main_v4) = R1 m' c (Proc.devRef .tc Cert.ReferenceIdeal.main_v4) :=
    calc Cert.KernelIdeal.Gen.W2 m ρ c (Proc.devRef .tc Cert.KernelIdeal.main_v4)
        = (Cert.KernelIdeal.Gen.dat0 (Cert.KernelIdeal.Gen.V1 m ρ) c).arrAt 2 Cert.KernelIdeal.cfg0.N := Cert.KernelIdeal.Gen.W2_arr m ρ c 2
      _ = Cert.KernelIdeal.Region0.product (Cert.KernelIdeal.Gen.V1 m ρ c Cert.KernelIdeal.main_arg0) (Cert.KernelIdeal.Gen.V1 m ρ c Cert.KernelIdeal.main_arg2) := Cert.KernelIdeal.Region0.final (Cert.KernelIdeal.Gen.V1 m ρ) c
      _ = Host.dotGeneral (F := Ideal) (φ₁ := .f32) (φ₂ := .f32) Cert.ReferenceIdeal.dot_S10000x512_S512x256_S10000x256_1_0_0_1_n_n none
            (Cert.KernelIdeal.Gen.V1 m ρ c Cert.KernelIdeal.main_arg0) (Cert.KernelIdeal.Gen.V1 m ρ c Cert.KernelIdeal.main_arg2) := product0_eq _ _
      _ = Host.dotGeneral (F := Ideal) (φ₁ := .f32) (φ₂ := .f32) Cert.ReferenceIdeal.dot_S10000x512_S512x256_S10000x256_1_0_0_1_n_n none
            (RA m' c (Proc.devRef .tc Cert.ReferenceIdeal.main_arg0)) (RA m' c (Proc.devRef .tc Cert.ReferenceIdeal.main_arg2)) := by
          rw [show Cert.KernelIdeal.Gen.V1 m ρ c Cert.KernelIdeal.main_arg0 = RA m' c (Proc.devRef .tc Cert.ReferenceIdeal.main_arg0) from a_0,
            show Cert.KernelIdeal.Gen.V1 m ρ c Cert.KernelIdeal.main_arg2 = RA m' c (Proc.devRef .tc Cert.ReferenceIdeal.main_arg2) from a_2]
      _ = R1 m' c (Proc.devRef .tc Cert.ReferenceIdeal.main_v4) := (dot1_v4 (RA m' c)).symm
  have p_v1 : Cert.KernelIdeal.Gen.W2 m ρ c (Proc.devRef .tc Cert.KernelIdeal.main_v1) = R1 m' c (Proc.devRef .tc Cert.ReferenceIdeal.main_v1) :=
    (Cert.KernelIdeal.Gen.W2_of_ne m ρ c Cert.KernelIdeal.main_v1 (by decide)).trans (a_v1.trans (dot1_v1 (RA m' c)).symm)
  have p_v3 : Cert.KernelIdeal.Gen.W2 m ρ c (Proc.devRef .tc Cert.KernelIdeal.main_v3) = R1 m' c (Proc.devRef .tc Cert.ReferenceIdeal.main_v3) :=
    (Cert.KernelIdeal.Gen.W2_of_ne m ρ c Cert.KernelIdeal.main_v3 (by decide)).trans (a_v3.trans (dot1_v3 (RA m' c)).symm)
  have p_3 : Cert.KernelIdeal.Gen.W2 m ρ c (Proc.devRef .tc Cert.KernelIdeal.main_arg3) = R1 m' c (Proc.devRef .tc Cert.ReferenceIdeal.main_arg3) :=
    (Cert.KernelIdeal.Gen.W2_of_ne m ρ c Cert.KernelIdeal.main_arg3 (by decide)).trans (a_3.trans (dot1_arg3 (RA m' c)).symm)
  have p_4 : Cert.KernelIdeal.Gen.W2 m ρ c (Proc.devRef .tc Cert.KernelIdeal.main_arg4) = R1 m' c (Proc.devRef .tc Cert.ReferenceIdeal.main_arg4) :=
    (Cert.KernelIdeal.Gen.W2_of_ne m ρ c Cert.KernelIdeal.main_arg4 (by decide)).trans (a_4.trans (dot1_arg4 (RA m' c)).symm)
  have p_5 : Cert.KernelIdeal.Gen.W2 m ρ c (Proc.devRef .tc Cert.KernelIdeal.main_arg5) = R1 m' c (Proc.devRef .tc Cert.ReferenceIdeal.main_arg5) :=
    (Cert.KernelIdeal.Gen.W2_of_ne m ρ c Cert.KernelIdeal.main_arg5 (by decide)).trans (a_5.trans (dot1_arg5 (RA m' c)).symm)
  -- after the first layer's graph side, then its aggregation, bias and ReLU
  have n_v6 : Cert.KernelIdeal.Gen.W4 m ρ c (Proc.devRef .tc Cert.KernelIdeal.main_v6) = RN1 m' c (Proc.devRef .tc Cert.ReferenceIdeal.main_v6) := norm1_v6 _ _ p_v1
  have n_v7 : Cert.KernelIdeal.Gen.W4 m ρ c (Proc.devRef .tc Cert.KernelIdeal.main_v7) = RN1 m' c (Proc.devRef .tc Cert.ReferenceIdeal.main_v7) := norm1_v7 _ _ p_v3
  have n_v15 : Cert.KernelIdeal.Gen.W4 m ρ c (Proc.devRef .tc Cert.KernelIdeal.main_v15) = RN1 m' c (Proc.devRef .tc Cert.ReferenceIdeal.main_v15) := norm1_v15 _ _ p_v3
  have n_v1 : Cert.KernelIdeal.Gen.W4 m ρ c (Proc.devRef .tc Cert.KernelIdeal.main_v1) = RN1 m' c (Proc.devRef .tc Cert.ReferenceIdeal.main_v1) := norm1_v1 _ _ p_v1
  have n_v3 : Cert.KernelIdeal.Gen.W4 m ρ c (Proc.devRef .tc Cert.KernelIdeal.main_v3) = RN1 m' c (Proc.devRef .tc Cert.ReferenceIdeal.main_v3) := norm1_v3 _ _ p_v3
  have n_v4 : Cert.KernelIdeal.Gen.W4 m ρ c (Proc.devRef .tc Cert.KernelIdeal.main_v4) = RN1 m' c (Proc.devRef .tc Cert.ReferenceIdeal.main_v4) := norm1_v4 _ _ p_v4
  have n_3 : Cert.KernelIdeal.Gen.W4 m ρ c (Proc.devRef .tc Cert.KernelIdeal.main_arg3) = RN1 m' c (Proc.devRef .tc Cert.ReferenceIdeal.main_arg3) := norm1_arg3 _ _ p_3
  have n_4 : Cert.KernelIdeal.Gen.W4 m ρ c (Proc.devRef .tc Cert.KernelIdeal.main_arg4) = RN1 m' c (Proc.devRef .tc Cert.ReferenceIdeal.main_arg4) := norm1_arg4 _ _ p_4
  have n_5 : Cert.KernelIdeal.Gen.W4 m ρ c (Proc.devRef .tc Cert.KernelIdeal.main_arg5) = RN1 m' c (Proc.devRef .tc Cert.ReferenceIdeal.main_arg5) := norm1_arg5 _ _ p_5
  have b_v47 : Cert.KernelIdeal.Gen.W6 m ρ c (Proc.devRef .tc Cert.KernelIdeal.main_v47) = RB m' c (Proc.devRef .tc Cert.ReferenceIdeal.main_v47) := agg1_v47 _ _ n_v4 n_v6 n_v7 n_v15 n_3
  have b_v1 : Cert.KernelIdeal.Gen.W6 m ρ c (Proc.devRef .tc Cert.KernelIdeal.main_v1) = RB m' c (Proc.devRef .tc Cert.ReferenceIdeal.main_v1) := agg1_v1 _ _ n_v1
  have b_v3 : Cert.KernelIdeal.Gen.W6 m ρ c (Proc.devRef .tc Cert.KernelIdeal.main_v3) = RB m' c (Proc.devRef .tc Cert.ReferenceIdeal.main_v3) := agg1_v3 _ _ n_v3
  have b_4 : Cert.KernelIdeal.Gen.W6 m ρ c (Proc.devRef .tc Cert.KernelIdeal.main_arg4) = RB m' c (Proc.devRef .tc Cert.ReferenceIdeal.main_arg4) := agg1_arg4 _ _ n_4
  have b_5 : Cert.KernelIdeal.Gen.W6 m ρ c (Proc.devRef .tc Cert.KernelIdeal.main_arg5) = RB m' c (Proc.devRef .tc Cert.ReferenceIdeal.main_arg5) := agg1_arg5 _ _ n_5
  -- after the second product
  have q_v48 : Cert.KernelIdeal.Gen.W7 m ρ c (Proc.devRef .tc Cert.KernelIdeal.main_v48) = R2 m' c (Proc.devRef .tc Cert.ReferenceIdeal.main_v48) :=
    calc Cert.KernelIdeal.Gen.W7 m ρ c (Proc.devRef .tc Cert.KernelIdeal.main_v48)
        = (Cert.KernelIdeal.Gen.dat1 (Cert.KernelIdeal.Gen.V6 m ρ) c).arrAt 2 Cert.KernelIdeal.cfg1.N := Cert.KernelIdeal.Gen.W7_arr m ρ c 2
      _ = Cert.KernelIdeal.Region1.product (Cert.KernelIdeal.Gen.V6 m ρ c Cert.KernelIdeal.main_v47) (Cert.KernelIdeal.Gen.V6 m ρ c Cert.KernelIdeal.main_arg4) := Cert.KernelIdeal.Region1.final (Cert.KernelIdeal.Gen.V6 m ρ) c
      _ = Host.dotGeneral (F := Ideal) (φ₁ := .f32) (φ₂ := .f32) Cert.ReferenceIdeal.dot_S10000x256_S256x128_S10000x128_1_0_0_1_n_n none
            (Cert.KernelIdeal.Gen.V6 m ρ c Cert.KernelIdeal.main_v47) (Cert.KernelIdeal.Gen.V6 m ρ c Cert.KernelIdeal.main_arg4) := product1_eq _ _
      _ = Host.dotGeneral (F := Ideal) (φ₁ := .f32) (φ₂ := .f32) Cert.ReferenceIdeal.dot_S10000x256_S256x128_S10000x128_1_0_0_1_n_n none
            (RB m' c (Proc.devRef .tc Cert.ReferenceIdeal.main_v47)) (RB m' c (Proc.devRef .tc Cert.ReferenceIdeal.main_arg4)) := by
          rw [show Cert.KernelIdeal.Gen.V6 m ρ c Cert.KernelIdeal.main_v47 = RB m' c (Proc.devRef .tc Cert.ReferenceIdeal.main_v47) from b_v47,
            show Cert.KernelIdeal.Gen.V6 m ρ c Cert.KernelIdeal.main_arg4 = RB m' c (Proc.devRef .tc Cert.ReferenceIdeal.main_arg4) from b_4]
      _ = R2 m' c (Proc.devRef .tc Cert.ReferenceIdeal.main_v48) := (dot2_v48 (RB m' c)).symm
  have q_v1 : Cert.KernelIdeal.Gen.W7 m ρ c (Proc.devRef .tc Cert.KernelIdeal.main_v1) = R2 m' c (Proc.devRef .tc Cert.ReferenceIdeal.main_v1) :=
    (Cert.KernelIdeal.Gen.W7_of_ne m ρ c Cert.KernelIdeal.main_v1 (by decide)).trans (b_v1.trans (dot2_v1 (RB m' c)).symm)
  have q_v3 : Cert.KernelIdeal.Gen.W7 m ρ c (Proc.devRef .tc Cert.KernelIdeal.main_v3) = R2 m' c (Proc.devRef .tc Cert.ReferenceIdeal.main_v3) :=
    (Cert.KernelIdeal.Gen.W7_of_ne m ρ c Cert.KernelIdeal.main_v3 (by decide)).trans (b_v3.trans (dot2_v3 (RB m' c)).symm)
  have q_5 : Cert.KernelIdeal.Gen.W7 m ρ c (Proc.devRef .tc Cert.KernelIdeal.main_arg5) = R2 m' c (Proc.devRef .tc Cert.ReferenceIdeal.main_arg5) :=
    (Cert.KernelIdeal.Gen.W7_of_ne m ρ c Cert.KernelIdeal.main_arg5 (by decide)).trans (b_5.trans (dot2_arg5 (RB m' c)).symm)
  -- after the second layer's graph side, then its aggregation and bias: the returned array
  have u_v50 : Cert.KernelIdeal.Gen.W9 m ρ c (Proc.devRef .tc Cert.KernelIdeal.main_v50) = RN2 m' c (Proc.devRef .tc Cert.ReferenceIdeal.main_v50) := norm2_v50 _ _ q_v1
  have u_v51 : Cert.KernelIdeal.Gen.W9 m ρ c (Proc.devRef .tc Cert.KernelIdeal.main_v51) = RN2 m' c (Proc.devRef .tc Cert.ReferenceIdeal.main_v51) := norm2_v51 _ _ q_v3
  have u_v59 : Cert.KernelIdeal.Gen.W9 m ρ c (Proc.devRef .tc Cert.KernelIdeal.main_v59) = RN2 m' c (Proc.devRef .tc Cert.ReferenceIdeal.main_v59) := norm2_v59 _ _ q_v3
  have u_v48 : Cert.KernelIdeal.Gen.W9 m ρ c (Proc.devRef .tc Cert.KernelIdeal.main_v48) = RN2 m' c (Proc.devRef .tc Cert.ReferenceIdeal.main_v48) := norm2_v48 _ _ q_v48
  have u_5 : Cert.KernelIdeal.Gen.W9 m ρ c (Proc.devRef .tc Cert.KernelIdeal.main_arg5) = RN2 m' c (Proc.devRef .tc Cert.ReferenceIdeal.main_arg5) := norm2_arg5 _ _ q_5
  have t : Cert.KernelIdeal.Gen.W10 m ρ c (Proc.devRef .tc Cert.KernelIdeal.main_v90) = after refAgg2 (RN2 m' c) (Proc.devRef .tc Cert.ReferenceIdeal.main_v90) := agg2_v90 _ _ u_v48 u_v50 u_v51 u_v59 u_5
  exact t.trans (congrFun (after_ops (launchContents m' c)) _).symm

end Cert.Proof.Bridge

end
-- ==== Proof.lean ====
/- Two graph-convolution layers, each `Â · (h · W) + b` with a ReLU between them: the kernel program computes the two
   products `h · W` by pallas_calls over 2000-row blocks with bf16 operands on the matrix unit, the reference by one
   dot_general each; the normalised aggregation over the edge list around them is the same host operations in both.

   The claims. Each program terminates without a fault and leaves its arguments as launched: the two kernel programs
   by the generated frame over their two regions, the reference by its run. The idealisation rewrote nothing, so that
   claim is trivial. On the extended reals the kernel program and the reference return the same array: the two
   pallas_calls' output arrays are the reference's two products entry by entry (rounding to bf16 is the identity there
   and the matrix unit's value into a zero accumulator is the plain sum over the contracted axis), and every other
   operation is shared (Bridge). No arithmetic law that could fail at an infinity is used, so the precondition is not
   opened. -/
import proofs.«176515_j27788438405708_1_alg».proof.Defs
import proofs.«176515_j27788438405708_1_alg».proof.Proof.Gen.Kernel
import proofs.«176515_j27788438405708_1_alg».proof.Proof.Gen.Kernel.Skeleton
import proofs.«176515_j27788438405708_1_alg».proof.Proof.Gen.Kernel.Launch
import proofs.«176515_j27788438405708_1_alg».proof.Proof.Gen.Kernel.Points
import proofs.«176515_j27788438405708_1_alg».proof.Proof.Gen.Kernel.Frame
import proofs.«176515_j27788438405708_1_alg».proof.Proof.Gen.KernelIdeal
import proofs.«176515_j27788438405708_1_alg».proof.Proof.Gen.KernelIdeal.Skeleton
import proofs.«176515_j27788438405708_1_alg».proof.Proof.Gen.KernelIdeal.Launch
import proofs.«176515_j27788438405708_1_alg».proof.Proof.Gen.KernelIdeal.Points
import proofs.«176515_j27788438405708_1_alg».proof.Proof.Gen.KernelIdeal.Frame
import proofs.«176515_j27788438405708_1_alg».proof.Proof.Gen.ReferenceIdeal
import proofs.«176515_j27788438405708_1_alg».proof.Proof.Gen.Pre_finite_inputs
import proofs.«176515_j27788438405708_1_alg».proof.Proof.NamedRun
import proofs.«176515_j27788438405708_1_alg».proof.Proof.RefRun
import proofs.«176515_j27788438405708_1_alg».proof.Proof.Bridge
import Idealize.ShloMosaic.Adequacy
import Idealize.ShloMosaic.Init

set_option maxRecDepth 16384

noncomputable section

namespace Cert.Proof

open Idealize.ShloMosaic Idealize.SL.Sem Idealize.ShloMosaic.StableHlo

/-- The word-level kernel program runs and keeps its arguments: the generated frame over its two regions. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

set_option maxHeartbeats 48000000 in
/-- On the extended reals, from memories agreeing on the arguments, both programs end with the same returned array
    (the kernel program's last boundary contents at its result buffer) and their arguments unchanged. -/
theorem algebraic : Cert.algebraic_KernelIdeal_ReferenceIdeal := by
  intro m ρ m' ρ' _ hagree
  refine ⟨fun c => Cert.KernelIdeal.Gen.W10 m ρ c (Proc.devRef .tc Cert.KernelIdeal.main_v90), Cert.KernelIdeal.NamedRun.run m ρ, ?_⟩
  refine (θ_run Cert.ReferenceIdeal.defs _ _).mono (fun r h c => ?_)
    (run_seq Cert.ReferenceIdeal.ValueP.scopedRefs_eq Cert.ReferenceIdeal.ValueP.scopedSems_eq Cert.ReferenceIdeal.defs
      Cert.ReferenceIdeal.main (fun _ => Cert.ReferenceIdeal.ValueP.ops) Cert.ReferenceIdeal.ValueP.main_eq
      (fun _ => Cert.ReferenceIdeal.ValueP.ops_sub) m' ρ')
  obtain ⟨g0, g1, g2, g3, g4, g5⟩ := hagree c
  refine ⟨(h c Cert.ReferenceIdeal.main_v90).trans (Cert.Proof.Bridge.result_eq m ρ m' c g0 g1 g2 g3 g4 g5).symm,
    (h c Cert.ReferenceIdeal.main_arg0).trans (by after_results_simp <;> rfl),
    (h c Cert.ReferenceIdeal.main_arg1).trans (by after_results_simp <;> rfl),
    (h c Cert.ReferenceIdeal.main_arg2).trans (by after_results_simp <;> rfl),
    (h c Cert.ReferenceIdeal.main_arg3).trans (by after_results_simp <;> rfl),
    (h c Cert.ReferenceIdeal.main_arg4).trans (by after_results_simp <;> rfl),
    (h c Cert.ReferenceIdeal.main_arg5).trans (by after_results_simp <;> rfl)⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
